-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S16x1024x33 : Shape := ⟨3, ![16, 1024, 33]⟩
abbrev S16x2048x33 : Shape := ⟨3, ![16, 2048, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S4096x33 : Shape := ⟨2, ![4096, 33]⟩
abbrev S2048x128 : Shape := ⟨2, ![2048, 128]⟩
abbrev S2048x33 : Shape := ⟨2, ![2048, 33]⟩
abbrev S33x512 : Shape := ⟨2, ![33, 512]⟩
abbrev S2048x512 : Shape := ⟨2, ![2048, 512]⟩
abbrev S512x32 : Shape := ⟨2, ![512, 32]⟩
abbrev S2048x32 : Shape := ⟨2, ![2048, 32]⟩
abbrev S1024x32 : Shape := ⟨2, ![1024, 32]⟩
abbrev S1024x1 : Shape := ⟨2, ![1024, 1]⟩
abbrev S1024x65 : Shape := ⟨2, ![1024, 65]⟩
abbrev S65x512 : Shape := ⟨2, ![65, 512]⟩
abbrev S1024x512 : Shape := ⟨2, ![1024, 512]⟩
abbrev S512x128 : Shape := ⟨2, ![512, 128]⟩
abbrev S1024x128 : Shape := ⟨2, ![1024, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S16x1024x33, .bf16⟩
  | .hbm, ⟨17, _⟩ => ⟨S16x1024x33, .bf16⟩
  | .hbm, ⟨18, _⟩ => ⟨S16x2048x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S4096x33, .bf16⟩
  | .local _ .vmem, ⟨1, _⟩ => ⟨S4096x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S16x1024x33 : S16384x33.ShapeCasts S16x1024x33
  concatenates_S16x1024x33_S16x1024x33_S16x2048x33_d1 : Shape.Concatenates [S16x1024x33, S16x1024x33] S16x2048x33 1
  shapeCasts_S16x2048x33_S32768x33 : S16x2048x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S4096x33_S2048x33_0_0 : ∀ a, (![0, 0] : Fin 2 → Nat) a + S2048x33.size a ≤ S4096x33.size a
  h_S2048x33 : 0 < S2048x33.numel
  shapeCasts_S2048x33_S2048x33 : S2048x33.ShapeCasts S2048x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x512_0_0 : ∀ a, (![0, 0] : Fin 2 → Nat) a + S33x512.size a ≤ S33x4096.size a
  h_S33x512 : 0 < S33x512.numel
  shapeCasts_S33x512_S33x512 : S33x512.ShapeCasts S33x512
  inb_S4096x32_S512x32_0_0 : ∀ a, (![0, 0] : Fin 2 → Nat) a + S512x32.size a ≤ S4096x32.size a
  h_S512x32 : 0 < S512x32.numel
  shapeCasts_S512x32_S512x32 : S512x32.ShapeCasts S512x32
  broadcasts_S1x32_S2048x32 : S1x32.Broadcasts S2048x32
  inb_S33x4096_S33x512_0_512 : ∀ a, (![0, 512] : Fin 2 → Nat) a + S33x512.size a ≤ S33x4096.size a
  inb_S4096x32_S512x32_512_0 : ∀ a, (![512, 0] : Fin 2 → Nat) a + S512x32.size a ≤ S4096x32.size a
  inb_S33x4096_S33x512_0_1024 : ∀ a, (![0, 1024] : Fin 2 → Nat) a + S33x512.size a ≤ S33x4096.size a
  inb_S4096x32_S512x32_1024_0 : ∀ a, (![1024, 0] : Fin 2 → Nat) a + S512x32.size a ≤ S4096x32.size a
  inb_S33x4096_S33x512_0_1536 : ∀ a, (![0, 1536] : Fin 2 → Nat) a + S33x512.size a ≤ S33x4096.size a
  inb_S4096x32_S512x32_1536_0 : ∀ a, (![1536, 0] : Fin 2 → Nat) a + S512x32.size a ≤ S4096x32.size a
  inb_S33x4096_S33x512_0_2048 : ∀ a, (![0, 2048] : Fin 2 → Nat) a + S33x512.size a ≤ S33x4096.size a
  inb_S4096x32_S512x32_2048_0 : ∀ a, (![2048, 0] : Fin 2 → Nat) a + S512x32.size a ≤ S4096x32.size a
  inb_S33x4096_S33x512_0_2560 : ∀ a, (![0, 2560] : Fin 2 → Nat) a + S33x512.size a ≤ S33x4096.size a
  inb_S4096x32_S512x32_2560_0 : ∀ a, (![2560, 0] : Fin 2 → Nat) a + S512x32.size a ≤ S4096x32.size a
  inb_S33x4096_S33x512_0_3072 : ∀ a, (![0, 3072] : Fin 2 → Nat) a + S33x512.size a ≤ S33x4096.size a
  inb_S4096x32_S512x32_3072_0 : ∀ a, (![3072, 0] : Fin 2 → Nat) a + S512x32.size a ≤ S4096x32.size a
  inb_S33x4096_S33x512_0_3584 : ∀ a, (![0, 3584] : Fin 2 → Nat) a + S33x512.size a ≤ S33x4096.size a
  inb_S4096x32_S512x32_3584_0 : ∀ a, (![3584, 0] : Fin 2 → Nat) a + S512x32.size a ≤ S4096x32.size a
  slices_S2048x32_o0_0_S1024x32 : S2048x32.Slices ![0, 0] S1024x32
  slices_S2048x32_o1024_0_S1024x32 : S2048x32.Slices ![1024, 0] S1024x32
  concatenates_S1024x32_S1024x32_S1024x1_S1024x65_d1 : Shape.Concatenates [S1024x32, S1024x32, S1024x1] S1024x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x512_0_0 : ∀ a, (![0, 0] : Fin 2 → Nat) a + S65x512.size a ≤ S65x4096.size a
  h_S65x512 : 0 < S65x512.numel
  shapeCasts_S65x512_S65x512 : S65x512.ShapeCasts S65x512
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  broadcasts_S1x128_S1024x128 : S1x128.Broadcasts S1024x128
  inb_S65x4096_S65x512_0_512 : ∀ a, (![0, 512] : Fin 2 → Nat) a + S65x512.size a ≤ S65x4096.size a
  inb_S4096x128_S512x128_512_0 : ∀ a, (![512, 0] : Fin 2 → Nat) a + S512x128.size a ≤ S4096x128.size a
  inb_S65x4096_S65x512_0_1024 : ∀ a, (![0, 1024] : Fin 2 → Nat) a + S65x512.size a ≤ S65x4096.size a
  inb_S4096x128_S512x128_1024_0 : ∀ a, (![1024, 0] : Fin 2 → Nat) a + S512x128.size a ≤ S4096x128.size a
  inb_S65x4096_S65x512_0_1536 : ∀ a, (![0, 1536] : Fin 2 → Nat) a + S65x512.size a ≤ S65x4096.size a
  inb_S4096x128_S512x128_1536_0 : ∀ a, (![1536, 0] : Fin 2 → Nat) a + S512x128.size a ≤ S4096x128.size a
  inb_S65x4096_S65x512_0_2048 : ∀ a, (![0, 2048] : Fin 2 → Nat) a + S65x512.size a ≤ S65x4096.size a
  inb_S4096x128_S512x128_2048_0 : ∀ a, (![2048, 0] : Fin 2 → Nat) a + S512x128.size a ≤ S4096x128.size a
  inb_S65x4096_S65x512_0_2560 : ∀ a, (![0, 2560] : Fin 2 → Nat) a + S65x512.size a ≤ S65x4096.size a
  inb_S4096x128_S512x128_2560_0 : ∀ a, (![2560, 0] : Fin 2 → Nat) a + S512x128.size a ≤ S4096x128.size a
  inb_S65x4096_S65x512_0_3072 : ∀ a, (![0, 3072] : Fin 2 → Nat) a + S65x512.size a ≤ S65x4096.size a
  inb_S4096x128_S512x128_3072_0 : ∀ a, (![3072, 0] : Fin 2 → Nat) a + S512x128.size a ≤ S4096x128.size a
  inb_S65x4096_S65x512_0_3584 : ∀ a, (![0, 3584] : Fin 2 → Nat) a + S65x512.size a ≤ S65x4096.size a
  inb_S4096x128_S512x128_3584_0 : ∀ a, (![3584, 0] : Fin 2 → Nat) a + S512x128.size a ≤ S4096x128.size a
  inb_S2048x128_S1024x128_0_0 : ∀ a, (![0, 0] : Fin 2 → Nat) a + S1024x128.size a ≤ S2048x128.size a
  h_S1024x128 : 0 < S1024x128.numel
  inb_S4096x33_S2048x33_2048_0 : ∀ a, (![2048, 0] : Fin 2 → Nat) a + S2048x33.size a ≤ S4096x33.size a
  inb_S2048x128_S1024x128_1024_0 : ∀ a, (![1024, 0] : Fin 2 → Nat) a + S1024x128.size a ≤ S2048x128.size a
  dot_S2048x33_S33x512_S2048x512_1_0_0_1_n_n_wf : DotDims.WF S2048x33 S33x512 S2048x512 [1] [0] [0] [1] [] []
  dot_S2048x512_S512x32_S2048x32_1_0_0_1_n_n_wf : DotDims.WF S2048x512 S512x32 S2048x32 [1] [0] [0] [1] [] []
  dot_S1024x65_S65x512_S1024x512_1_0_0_1_n_n_wf : DotDims.WF S1024x65 S65x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x33.size a ≤ S32768x33.size a
  hwx0_0 : ∀ i : grid0.Coords, EltTy.bits .bf16 = 32 ∨ (Rect.block (s := S32768x33) S4096x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S2048x33_S33x512_S2048x512_1_0_0_1_n_n : DotDims S2048x33 S33x512 S2048x512 where
  lhsContracting := [1]
  rhsContracting := [0]
  lhsNonContracting := [0]
  rhsNonContracting := [1]
  lhsBatch := []
  rhsBatch := []
  wf := dot_S2048x33_S33x512_S2048x512_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S1024x65_S65x512_S1024x512_1_0_0_1_n_n : DotDims S1024x65 S65x512 S1024x512 where
  lhsContracting := [1]
  rhsContracting := [0]
  lhsNonContracting := [0]
  rhsNonContracting := [1]
  lhsBatch := []
  rhsBatch := []
  wf := dot_S1024x65_S65x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v8) S4096x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Mat.lean ====
/-
  A matrix product into a zero accumulator, read at an entry: at the extended reals `(l · r)[p, q]` is the sum over
  the contracted coordinate `k` of `l[p, k] · r[k, q]`. Stated once for any product of a [A, K] by a [K, B] matrix whose
  dimension numbers contract the left operand's columns with the right operand's rows, then for the four products of
  the kernel's body (two per pair of layers: onto a chunk of hidden units, and from it).
-/
import proofs.«166245_g11802570129985_cont_fleet_79_12_alg».proof.Proof.Gen.KernelIdeal
import Idealize.ShloMosaic.Lib.ValueIdx
import Idealize.ShloMosaic.PureOps.Ideal.Laws

noncomputable section

namespace Cert.Siamese.Mat

open Cert.KernelIdeal Idealize.ShloMosaic Idealize.ShloMosaic.ValueIdx

/-- The plain product at an entry, from the four facts that say which coordinate of each operand the dimension
    numbers take from the result's index and which from the contraction's. -/
theorem matmul_plain_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (k : D.contr.Idx), (D.lhsIdx i k 0).val = (i 0).val)
    (hl1 : ∀ (i : (⟨2, ![A, B]⟩ : Shape).Idx) (k : D.contr.Idx), (D.lhsIdx i k 1).val = (k ⟨0, by omega⟩).val)
    (hr0 : ∀ (i : (⟨2, ![A, B]⟩ : Shape).Idx) (k : D.contr.Idx), (D.rhsIdx i k 0).val = (k ⟨0, by omega⟩).val)
    (hr1 : ∀ (i : (⟨2, ![A, B]⟩ : Shape).Idx) (k : D.contr.Idx), (D.rhsIdx i k 1).val = (i 1).val)
    (l : FVec Ideal (⟨2, ![A, K]⟩ : Shape) φ₁) (r : FVec Ideal (⟨2, ![K, B]⟩ : Shape) φ₂) (p : Fin A) (q : Fin B) :
    matmul D none l r (constant (F := Ideal) (⟨2, ![A, B]⟩ : Shape) .f32 0x00000000#32) (ix2 p q)
      = ∑ k : Fin K, l (ix2 p k) * r (ix2 k q) := by
  refine (Ideal.matmul_constant_zero_apply D none l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! ## A half-stream's 2048 extended rows times a 512-column chunk of the first matrix -/

theorem toHidden12_l0 (i : S2048x512.Idx) (k : dot_S2048x33_S33x512_S2048x512_1_0_0_1_n_n.contr.Idx) :
    (dot_S2048x33_S33x512_S2048x512_1_0_0_1_n_n.lhsIdx i k 0).val = (i 0).val := by
  unfold DotDims.lhsIdx
  rw [dif_neg (show ¬(0 : Fin S2048x33.rank) ∈ dot_S2048x33_S33x512_S2048x512_1_0_0_1_n_n.lhsBatch by decide),
    dif_pos (show (0 : Fin S2048x33.rank) ∈ dot_S2048x33_S33x512_S2048x512_1_0_0_1_n_n.lhsNonContracting by decide)]
  rfl
theorem toHidden12_l1 (i : S2048x512.Idx) (k : dot_S2048x33_S33x512_S2048x512_1_0_0_1_n_n.contr.Idx) :
    (dot_S2048x33_S33x512_S2048x512_1_0_0_1_n_n.lhsIdx i k 1).val = (k ⟨0, by decide⟩).val :=
  dot_S2048x33_S33x512_S2048x512_1_0_0_1_n_n.lhsIdx_val_of_single rfl i k
theorem toHidden12_r0 (i : S2048x512.Idx) (k : dot_S2048x33_S33x512_S2048x512_1_0_0_1_n_n.contr.Idx) :
    (dot_S2048x33_S33x512_S2048x512_1_0_0_1_n_n.rhsIdx i k 0).val = (k ⟨0, by decide⟩).val :=
  dot_S2048x33_S33x512_S2048x512_1_0_0_1_n_n.rhsIdx_val_of_single rfl i k
theorem toHidden12_r1 (i : S2048x512.Idx) (k : dot_S2048x33_S33x512_S2048x512_1_0_0_1_n_n.contr.Idx) :
    (dot_S2048x33_S33x512_S2048x512_1_0_0_1_n_n.rhsIdx i k 1).val = (i 1).val := by
  unfold DotDims.rhsIdx
  rw [dif_neg (show ¬(1 : Fin S33x512.rank) ∈ dot_S2048x33_S33x512_S2048x512_1_0_0_1_n_n.rhsBatch by decide),
    dif_pos (show (1 : Fin S33x512.rank) ∈ dot_S2048x33_S33x512_S2048x512_1_0_0_1_n_n.rhsNonContracting by decide)]
  rfl
theorem toHidden12_at {φ₁ φ₂ : FTy} (l : FVec Ideal S2048x33 φ₁) (r : FVec Ideal S33x512 φ₂) (p : Fin 2048) (q : Fin 512) :
    matmul dot_S2048x33_S33x512_S2048x512_1_0_0_1_n_n none l r (constant (F := Ideal) S2048x512 .f32 0x00000000#32) (ix2 p q)
      = ∑ k : Fin 33, l (ix2 p k) * r (ix2 k q) :=
  matmul_plain_at dot_S2048x33_S33x512_S2048x512_1_0_0_1_n_n rfl rfl toHidden12_l0 toHidden12_l1 toHidden12_r0 toHidden12_r1 l r p q

/-! ## A chunk of hidden units times the chunk's 512 rows of the second matrix -/

theorem fromHidden12_l0 (i : S2048x32.Idx) (k : dot_S2048x512_S512x32_S2048x32_1_0_0_1_n_n.contr.Idx) :
    (dot_S2048x512_S512x32_S2048x32_1_0_0_1_n_n.lhsIdx i k 0).val = (i 0).val := by
  unfold DotDims.lhsIdx
  rw [dif_neg (show ¬(0 : Fin S2048x512.rank) ∈ dot_S2048x512_S512x32_S2048x32_1_0_0_1_n_n.lhsBatch by decide),
    dif_pos (show (0 : Fin S2048x512.rank) ∈ dot_S2048x512_S512x32_S2048x32_1_0_0_1_n_n.lhsNonContracting by decide)]
  rfl
theorem fromHidden12_l1 (i : S2048x32.Idx) (k : dot_S2048x512_S512x32_S2048x32_1_0_0_1_n_n.contr.Idx) :
    (dot_S2048x512_S512x32_S2048x32_1_0_0_1_n_n.lhsIdx i k 1).val = (k ⟨0, by decide⟩).val :=
  dot_S2048x512_S512x32_S2048x32_1_0_0_1_n_n.lhsIdx_val_of_single rfl i k
theorem fromHidden12_r0 (i : S2048x32.Idx) (k : dot_S2048x512_S512x32_S2048x32_1_0_0_1_n_n.contr.Idx) :
    (dot_S2048x512_S512x32_S2048x32_1_0_0_1_n_n.rhsIdx i k 0).val = (k ⟨0, by decide⟩).val :=
  dot_S2048x512_S512x32_S2048x32_1_0_0_1_n_n.rhsIdx_val_of_single rfl i k
theorem fromHidden12_r1 (i : S2048x32.Idx) (k : dot_S2048x512_S512x32_S2048x32_1_0_0_1_n_n.contr.Idx) :
    (dot_S2048x512_S512x32_S2048x32_1_0_0_1_n_n.rhsIdx i k 1).val = (i 1).val := by
  unfold DotDims.rhsIdx
  rw [dif_neg (show ¬(1 : Fin S512x32.rank) ∈ dot_S2048x512_S512x32_S2048x32_1_0_0_1_n_n.rhsBatch by decide),
    dif_pos (show (1 : Fin S512x32.rank) ∈ dot_S2048x512_S512x32_S2048x32_1_0_0_1_n_n.rhsNonContracting by decide)]
  rfl
theorem fromHidden12_at {φ₁ φ₂ : FTy} (l : FVec Ideal S2048x512 φ₁) (r : FVec Ideal S512x32 φ₂) (p : Fin 2048) (q : Fin 32) :
    matmul dot_S2048x512_S512x32_S2048x32_1_0_0_1_n_n none l r (constant (F := Ideal) S2048x32 .f32 0x00000000#32) (ix2 p q)
      = ∑ k : Fin 512, l (ix2 p k) * r (ix2 k q) :=
  matmul_plain_at dot_S2048x512_S512x32_S2048x32_1_0_0_1_n_n rfl rfl fromHidden12_l0 fromHidden12_l1 fromHidden12_r0 fromHidden12_r1 l r p q

/-! ## The 1024 paired rows times a 512-column chunk of the third matrix -/

theorem toHidden34_l0 (i : S1024x512.Idx) (k : dot_S1024x65_S65x512_S1024x512_1_0_0_1_n_n.contr.Idx) :
    (dot_S1024x65_S65x512_S1024x512_1_0_0_1_n_n.lhsIdx i k 0).val = (i 0).val := by
  unfold DotDims.lhsIdx
  rw [dif_neg (show ¬(0 : Fin S1024x65.rank) ∈ dot_S1024x65_S65x512_S1024x512_1_0_0_1_n_n.lhsBatch by decide),
    dif_pos (show (0 : Fin S1024x65.rank) ∈ dot_S1024x65_S65x512_S1024x512_1_0_0_1_n_n.lhsNonContracting by decide)]
  rfl
theorem toHidden34_l1 (i : S1024x512.Idx) (k : dot_S1024x65_S65x512_S1024x512_1_0_0_1_n_n.contr.Idx) :
    (dot_S1024x65_S65x512_S1024x512_1_0_0_1_n_n.lhsIdx i k 1).val = (k ⟨0, by decide⟩).val :=
  dot_S1024x65_S65x512_S1024x512_1_0_0_1_n_n.lhsIdx_val_of_single rfl i k
theorem toHidden34_r0 (i : S1024x512.Idx) (k : dot_S1024x65_S65x512_S1024x512_1_0_0_1_n_n.contr.Idx) :
    (dot_S1024x65_S65x512_S1024x512_1_0_0_1_n_n.rhsIdx i k 0).val = (k ⟨0, by decide⟩).val :=
  dot_S1024x65_S65x512_S1024x512_1_0_0_1_n_n.rhsIdx_val_of_single rfl i k
theorem toHidden34_r1 (i : S1024x512.Idx) (k : dot_S1024x65_S65x512_S1024x512_1_0_0_1_n_n.contr.Idx) :
    (dot_S1024x65_S65x512_S1024x512_1_0_0_1_n_n.rhsIdx i k 1).val = (i 1).val := by
  unfold DotDims.rhsIdx
  rw [dif_neg (show ¬(1 : Fin S65x512.rank) ∈ dot_S1024x65_S65x512_S1024x512_1_0_0_1_n_n.rhsBatch by decide),
    dif_pos (show (1 : Fin S65x512.rank) ∈ dot_S1024x65_S65x512_S1024x512_1_0_0_1_n_n.rhsNonContracting by decide)]
  rfl
theorem toHidden34_at {φ₁ φ₂ : FTy} (l : FVec Ideal S1024x65 φ₁) (r : FVec Ideal S65x512 φ₂) (p : Fin 1024) (q : Fin 512) :
    matmul dot_S1024x65_S65x512_S1024x512_1_0_0_1_n_n none l r (constant (F := Ideal) S1024x512 .f32 0x00000000#32) (ix2 p q)
      = ∑ k : Fin 65, l (ix2 p k) * r (ix2 k q) :=
  matmul_plain_at dot_S1024x65_S65x512_S1024x512_1_0_0_1_n_n rfl rfl toHidden34_l0 toHidden34_l1 toHidden34_r0 toHidden34_r1 l r p q

/-! ## A chunk of the predictor's hidden units times the chunk's 512 rows of the fourth matrix -/

theorem fromHidden34_l0 (i : S1024x128.Idx) (k : dot_S1024x512_S512x128_S1024x128_1_0_0_1_n_n.contr.Idx) :
    (dot_S1024x512_S512x128_S1024x128_1_0_0_1_n_n.lhsIdx i k 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
theorem fromHidden34_l1 (i : S1024x128.Idx) (k : dot_S1024x512_S512x128_S1024x128_1_0_0_1_n_n.contr.Idx) :
    (dot_S1024x512_S512x128_S1024x128_1_0_0_1_n_n.lhsIdx i k 1).val = (k ⟨0, by decide⟩).val :=
  dot_S1024x512_S512x128_S1024x128_1_0_0_1_n_n.lhsIdx_val_of_single rfl i k
theorem fromHidden34_r0 (i : S1024x128.Idx) (k : dot_S1024x512_S512x128_S1024x128_1_0_0_1_n_n.contr.Idx) :
    (dot_S1024x512_S512x128_S1024x128_1_0_0_1_n_n.rhsIdx i k 0).val = (k ⟨0, by decide⟩).val :=
  dot_S1024x512_S512x128_S1024x128_1_0_0_1_n_n.rhsIdx_val_of_single rfl i k
theorem fromHidden34_r1 (i : S1024x128.Idx) (k : dot_S1024x512_S512x128_S1024x128_1_0_0_1_n_n.contr.Idx) :
    (dot_S1024x512_S512x128_S1024x128_1_0_0_1_n_n.rhsIdx i k 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl
theorem fromHidden34_at {φ₁ φ₂ : FTy} (l : FVec Ideal S1024x512 φ₁) (r : FVec Ideal S512x128 φ₂) (p : Fin 1024) (q : Fin 128) :
    matmul dot_S1024x512_S512x128_S1024x128_1_0_0_1_n_n none l r (constant (F := Ideal) S1024x128 .f32 0x00000000#32) (ix2 p q)
      = ∑ k : Fin 512, l (ix2 p k) * r (ix2 k q) :=
  matmul_plain_at dot_S1024x512_S512x128_S1024x128_1_0_0_1_n_n rfl rfl fromHidden34_l0 fromHidden34_l1 fromHidden34_r0 fromHidden34_r1 l r p q

end Cert.Siamese.Mat

end
-- ==== Proof.Spec.lean ====
/-
  The network that both programs compute, written over plain functions on the extended reals, and the two
  rearrangements by which the fused form meets the layer-by-layer form.

  A branch sends a state row `x` (32 entries) to `relu (relu (x · W1 + b1) · W2 + b2)` (32 entries); the two
  branches' outputs are laid side by side (64 entries) and sent to `relu (u · W3 + b3) · W4 + b4` (128 entries).

  The fused form differs in two ways, both plain algebra of sums in a commutative monoid:
  * a bias is folded into its matrix product by appending the entry `1` to the row and the bias to the matrix's
    column (`snoc`): `∑ j ≤ n, (x,1)_j · (w,b)_j = (∑ j < n, x_j · w_j) + 1 · b` (`sum_snoc_mul`);
  * the 4096 hidden units are summed eight chunks of 512 at a time, the second layer's bias first and the chunks'
    contributions added to it one after another (`chunked`, `sum_chunks`).
  Neither needs finiteness: only commutativity and associativity of `+`, and `1 · b = b`.
-/
import Idealize.ShloMosaic.PureOps.Ideal
import Idealize.ShloMosaic.Lib.ValueIdx
import Mathlib.Algebra.BigOperators.Fin
import Mathlib.Logic.Equiv.Fin.Basic

noncomputable section

namespace Cert.Siamese

open Idealize.ShloMosaic Idealize.ShloMosaic.ValueIdx

/-! ## A row with one more entry -/

/-- `f` with the entry `z` appended. -/
def snoc {n : Nat} (f : Fin n → EReal) (z : EReal) (j : Fin (n + 1)) : EReal :=
  if h : j.val < n then f ⟨j.val, h⟩ else z

theorem snoc_castSucc {n : Nat} (f : Fin n → EReal) (z : EReal) (i : Fin n) : snoc f z (Fin.castSucc i) = f i := by
  unfold snoc
  rw [dif_pos (show (Fin.castSucc i).val < n from i.isLt)]
  rfl

theorem snoc_last {n : Nat} (f : Fin n → EReal) (z : EReal) : snoc f z (Fin.last n) = z := by
  unfold snoc
  rw [dif_neg (show ¬ (Fin.last n).val < n from Nat.lt_irrefl n)]

/-- The product of two extended rows, summed: the rows' product plus the product of the appended entries. -/
theorem sum_snoc_mul {n : Nat} (f g : Fin n → EReal) (a b : EReal) :
    ∑ j : Fin (n + 1), snoc f a j * snoc g b j = (∑ i : Fin n, f i * g i) + a * b := by
  rw [Fin.sum_univ_castSucc]
  simp only [snoc_castSucc, snoc_last]

/-! ## The hidden units in eight chunks of 512 -/

/-- Hidden unit `k` of chunk `c`. -/
def chunkIdx (c : Fin 8) (k : Fin 512) : Fin 4096 := ⟨512 * c.val + k.val, by omega⟩

/-- A sum over the 4096 hidden units is the sum over the chunks of the sums inside each chunk. -/
theorem sum_chunks {M : Type*} [AddCommMonoid M] (f : Fin 4096 → M) :
    ∑ m : Fin 4096, f m = ∑ c : Fin 8, ∑ k : Fin 512, f (chunkIdx c k) := by
  rw [← Fintype.sum_prod_type' (f := fun c k => f (chunkIdx c k))]
  refine ((finProdFinEquiv (m := 8) (n := 512)).sum_comp f).symm.trans ?_
  refine Finset.sum_congr rfl fun p _ => congrArg f (Fin.ext ?_)
  show p.2.val + 512 * p.1.val = 512 * p.1.val + p.2.val
  omega

/-- A bias and eight contributions added to it one after another, in the order the fused form adds them. -/
def chunked (b : EReal) (T : Fin 8 → EReal) : EReal := b + T 0 + T 1 + T 2 + T 3 + T 4 + T 5 + T 6 + T 7

theorem chunked_eq (b : EReal) (T : Fin 8 → EReal) : chunked b T = (∑ c : Fin 8, T c) + b := by
  unfold chunked
  rw [Fin.sum_univ_eight]
  ac_rfl

/-- One chunk's contribution to a pair of layers: the chunk's 512 hidden units `relu (xr · wa)` times the
    second matrix's rows. -/
def chunkTerm {K N : Nat} (xr : Fin K → EReal) (wa : Fin K → Fin 4096 → EReal) (wb : Fin 4096 → Fin N → EReal)
    (q : Fin N) (c : Fin 8) : EReal :=
  ∑ k : Fin 512, max (∑ j : Fin K, xr j * wa j (chunkIdx c k)) 0 * wb (chunkIdx c k) q

/-- A pair of layers as the fused form computes it: bias first, then chunk after chunk. -/
def layerPair {K N : Nat} (xr : Fin K → EReal) (wa : Fin K → Fin 4096 → EReal) (wb : Fin 4096 → Fin N → EReal)
    (b : Fin N → EReal) (q : Fin N) : EReal :=
  chunked (b q) (chunkTerm xr wa wb q)

theorem layerPair_eq {K N : Nat} (xr : Fin K → EReal) (wa : Fin K → Fin 4096 → EReal) (wb : Fin 4096 → Fin N → EReal)
    (b : Fin N → EReal) (q : Fin N) :
    layerPair xr wa wb b q = (∑ m : Fin 4096, max (∑ j : Fin K, xr j * wa j m) 0 * wb m q) + b q := by
  unfold layerPair
  rw [chunked_eq, sum_chunks (fun m => max (∑ j : Fin K, xr j * wa j m) 0 * wb m q)]
  rfl

/-! ## The network, layer by layer -/

/-- A branch's hidden units. -/
def hidden (W1 : Fin 32 → Fin 4096 → EReal) (b1 : Fin 4096 → EReal) (x : Fin 32 → EReal) (m : Fin 4096) : EReal :=
  max ((∑ i : Fin 32, x i * W1 i m) + b1 m) 0

/-- A branch's output. -/
def embed (W1 : Fin 32 → Fin 4096 → EReal) (b1 : Fin 4096 → EReal) (W2 : Fin 4096 → Fin 32 → EReal) (b2 : Fin 32 → EReal)
    (x : Fin 32 → EReal) (j : Fin 32) : EReal :=
  max ((∑ m : Fin 4096, hidden W1 b1 x m * W2 m j) + b2 j) 0

/-- Two rows of 32 side by side. -/
def paired (a b : Fin 32 → EReal) (k : Fin 64) : EReal :=
  if h : k.val < 32 then a ⟨k.val, h⟩ else b ⟨k.val - 32, by omega⟩

/-- The predictor's hidden units. -/
def hidden3 (W3 : Fin 64 → Fin 4096 → EReal) (b3 : Fin 4096 → EReal) (u : Fin 64 → EReal) (m : Fin 4096) : EReal :=
  max ((∑ k : Fin 64, u k * W3 k m) + b3 m) 0

/-- The predictor's output. -/
def action (W3 : Fin 64 → Fin 4096 → EReal) (b3 : Fin 4096 → EReal) (W4 : Fin 4096 → Fin 128 → EReal) (b4 : Fin 128 → EReal)
    (u : Fin 64 → EReal) (q : Fin 128) : EReal :=
  (∑ m : Fin 4096, hidden3 W3 b3 u m * W4 m q) + b4 q

/-- The whole network on the argument arrays: entry `i` of the result. -/
def G (a0 a1 : (⟨2, ![16384, 32]⟩ : Shape).Idx → EReal) (a2 : (⟨2, ![32, 4096]⟩ : Shape).Idx → EReal)
    (a3 : (⟨1, ![4096]⟩ : Shape).Idx → EReal) (a4 : (⟨2, ![4096, 32]⟩ : Shape).Idx → EReal)
    (a5 : (⟨1, ![32]⟩ : Shape).Idx → EReal) (a6 : (⟨2, ![64, 4096]⟩ : Shape).Idx → EReal)
    (a7 : (⟨1, ![4096]⟩ : Shape).Idx → EReal) (a8 : (⟨2, ![4096, 128]⟩ : Shape).Idx → EReal)
    (a9 : (⟨1, ![128]⟩ : Shape).Idx → EReal) : (⟨2, ![16384, 128]⟩ : Shape).Idx → EReal := fun i =>
  action (fun k m => a6 (ix2 k m)) (fun m => a7 (ix1 m)) (fun m q => a8 (ix2 m q)) (fun q => a9 (ix1 q))
    (paired
      (embed (fun k m => a2 (ix2 k m)) (fun m => a3 (ix1 m)) (fun m j => a4 (ix2 m j)) (fun j => a5 (ix1 j)) (fun k => a0 (ix2 (i 0) k)))
      (embed (fun k m => a2 (ix2 k m)) (fun m => a3 (ix1 m)) (fun m j => a4 (ix2 m j)) (fun j => a5 (ix1 j)) (fun k => a1 (ix2 (i 0) k))))
    (i 1)

/-! ## The fused form of one half-stream, and that it is the network -/

/-- What the fused form computes for local row `rr` of a half-stream whose 2048 input rows are the 1024 state rows
    then the 1024 next-state rows, each with `1` appended; the matrices `w1a`, `w3a` carry their bias as a last row. -/
def streamNet (xh : Fin 2048 → Fin 33 → EReal) (w1a : Fin 33 → Fin 4096 → EReal) (w2 : Fin 4096 → Fin 32 → EReal)
    (b2 : Fin 32 → EReal) (w3a : Fin 65 → Fin 4096 → EReal) (w4 : Fin 4096 → Fin 128 → EReal) (b4 : Fin 128 → EReal)
    (rr : Fin 1024) (q : Fin 128) : EReal :=
  layerPair (K := 65)
    (snoc (n := 64) (paired (fun j => max (layerPair (xh ⟨rr.val, by omega⟩) w1a w2 b2 j) 0)
                            (fun j => max (layerPair (xh ⟨1024 + rr.val, by omega⟩) w1a w2 b2 j) 0)) 1)
    w3a w4 b4 q

/-- A pair of layers on an extended row and an extended matrix is the layer pair with its bias. -/
theorem layerPair_snoc {n N : Nat} (x : Fin n → EReal) (W : Fin n → Fin 4096 → EReal) (bW : Fin 4096 → EReal)
    (wb : Fin 4096 → Fin N → EReal) (b : Fin N → EReal) (q : Fin N) :
    layerPair (K := n + 1) (snoc x 1) (fun i m => snoc (fun i => W i m) (bW m) i) wb b q
      = (∑ m : Fin 4096, max ((∑ i : Fin n, x i * W i m) + bW m) 0 * wb m q) + b q := by
  rw [layerPair_eq]
  simp only [sum_snoc_mul, one_mul]

/-- The fused half-stream is the network on the rows it was given. -/
theorem streamNet_eq (xh : Fin 2048 → Fin 33 → EReal) (rr : Fin 1024) (xs xn : Fin 32 → EReal)
    (hs : xh ⟨rr.val, by omega⟩ = snoc (n := 32) xs 1) (hn : xh ⟨1024 + rr.val, by omega⟩ = snoc (n := 32) xn 1)
    (W1 : Fin 32 → Fin 4096 → EReal) (b1 : Fin 4096 → EReal) (W2 : Fin 4096 → Fin 32 → EReal) (b2 : Fin 32 → EReal)
    (W3 : Fin 64 → Fin 4096 → EReal) (b3 : Fin 4096 → EReal) (W4 : Fin 4096 → Fin 128 → EReal) (b4 : Fin 128 → EReal)
    (q : Fin 128) :
    streamNet xh (fun i m => snoc (n := 32) (fun i => W1 i m) (b1 m) i) W2 b2
        (fun k m => snoc (n := 64) (fun k => W3 k m) (b3 m) k) W4 b4 rr q
      = action W3 b3 W4 b4 (paired (embed W1 b1 W2 b2 xs) (embed W1 b1 W2 b2 xn)) q := by
  unfold streamNet
  rw [hs, hn]
  have e := layerPair_snoc (n := 64) (N := 128)
    (paired (fun j => max (layerPair (K := 33) (snoc (n := 32) xs 1) (fun i m => snoc (n := 32) (fun i => W1 i m) (b1 m) i) W2 b2 j) 0)
            (fun j => max (layerPair (K := 33) (snoc (n := 32) xn 1) (fun i m => snoc (n := 32) (fun i => W1 i m) (b1 m) i) W2 b2 j) 0))
    W3 b3 W4 b4 q
  refine e.trans ?_
  simp only [layerPair_snoc (n := 32) (N := 32)]
  rfl

end Cert.Siamese

end
-- ==== Proof.Pair.lean ====
/-
  The row handed to the second pair of layers: after `relu`, rows `r` and `1024 + r` of a half-stream's first-pair
  output side by side (the state branch, then the next-state branch) with a `1` appended, read at an entry.
-/
import proofs.«166245_g11802570129985_cont_fleet_79_12_alg».proof.Proof.Gen.KernelIdeal
import proofs.«166245_g11802570129985_cont_fleet_79_12_alg».proof.Proof.Spec
import Idealize.ShloMosaic.Lib.Pipeline.Value
import Idealize.ShloMosaic.Lib.ValueIdx
import Idealize.ShloMosaic.Lib.ValueLayout
import Idealize.ShloMosaic.Lib.IdealHost

noncomputable section

namespace Cert.Siamese.Pair

open Cert.KernelIdeal Cert.KernelIdeal.Facts₀ Idealize.ShloMosaic Idealize.ShloMosaic.ValueIdx Cert.Siamese

/-! ## The spec's paired row with a one appended, entry by entry -/

/-- Below 32 the entry is the first row's. -/
theorem snoc_paired_lo (A B : Fin 32 → EReal) (j : Fin 65) (h : j.val < 32) :
    snoc (n := 64) (paired A B) 1 j = A ⟨j.val, h⟩ := by
  unfold snoc
  rw [dif_pos (show j.val < 64 by omega)]
  unfold paired
  exact dif_pos h

/-- From 32 to 63 the entry is the second row's, 32 places back. -/
theorem snoc_paired_hi (A B : Fin 32 → EReal) (j : Fin 65) (h1 : 32 ≤ j.val) (h2 : j.val < 64) :
    snoc (n := 64) (paired A B) 1 j = B ⟨j.val - 32, by omega⟩ := by
  unfold snoc
  rw [dif_pos h2]
  unfold paired
  exact dif_neg (show ¬ j.val < 32 by omega)

/-- The last entry is the appended one. -/
theorem snoc_paired_last (A B : Fin 32 → EReal) (j : Fin 65) (h : ¬ j.val < 64) :
    snoc (n := 64) (paired A B) 1 j = 1 := by
  unfold snoc
  exact dif_neg h

/-! ## The kernel's pieces read at an entry -/

/-- A block of 1024 rows of `relu a` from row `o`: entry `(r, e)` is `max (a (o + r, e)) 0`. -/
theorem relu_slice_at (a : FVec Ideal S2048x32 .f32) (o : ℕ) (h : S2048x32.Slices ![o, 0] S1024x32)
    (r : Fin 1024) (e : Fin 32) (k : Fin 2048) (hk : k.val = o + r.val) :
    extractStridedSlice S1024x32 ![o, 0] (maximumf a (broadcast S2048x32 (Scalar.ofBits (F := Ideal) .f32 0x00000000#32))) h (ix2 r e)
      = max (a (ix2 k e)) 0 := by
  refine (slice2_axis0_apply o _ h r e k hk).trans ?_
  show max (a (ix2 k e)) (Ideal.ofBits .f32 0x00000000#32) = max (a (ix2 k e)) 0
  rw [Ideal.ofBits_zero_f32]

/-- Three pieces side by side, 32, 32 and 1 columns wide: entry `(r, j)` lies in the first below 32, in the second
    from 32 to 63 (32 columns back), and in the third at 64. -/
theorem concat3_at (p0 p1 : S1024x32.Idx → EReal) (p2 : S1024x1.Idx → EReal)
    (hc : Shape.Concatenates [S1024x32, S1024x32, S1024x1] S1024x65 1) (r : Fin 1024) (j : Fin 65) :
    concatenate S1024x65 1 [⟨S1024x32, p0⟩, ⟨S1024x32, p1⟩, ⟨S1024x1, p2⟩] hc (ix2 r j)
      = if h1 : j.val < 32 then p0 (ix2 r ⟨j.val, h1⟩)
        else if h2 : j.val < 64 then p1 (ix2 r ⟨j.val - 32, by omega⟩) else p2 (ix2 r (0 : Fin 1)) := by
  by_cases h1 : j.val < 32
  · rw [dif_pos h1]
    refine concatenate_apply_piece (t := S1024x65) (1 : Fin 2) [⟨S1024x32, p0⟩, ⟨S1024x32, p1⟩, ⟨S1024x1, p2⟩] hc (ix2 r j)
      0 (by show 0 < 3; omega) S1024x32 p0 rfl rfl 0 rfl (ix2 r (⟨j.val, h1⟩ : Fin 32)) ?_ ?_
    · intro b hb; match b, hb with | ⟨0, _⟩, _ => rfl | ⟨1, _⟩, hb => exact absurd rfl hb
    · show 0 + j.val = j.val; omega
  · rw [dif_neg h1]
    by_cases h2 : j.val < 64
    · rw [dif_pos h2]
      refine concatenate_apply_piece (t := S1024x65) (1 : Fin 2) [⟨S1024x32, p0⟩, ⟨S1024x32, p1⟩, ⟨S1024x1, p2⟩] hc (ix2 r j)
        1 (by show 1 < 3; omega) S1024x32 p1 rfl rfl 32 rfl (ix2 r (⟨j.val - 32, by omega⟩ : Fin 32)) ?_ ?_
      · intro b hb; match b, hb with | ⟨0, _⟩, _ => rfl | ⟨1, _⟩, hb => exact absurd rfl hb
      · show 32 + (j.val - 32) = j.val; omega
    · rw [dif_neg h2]
      refine concatenate_apply_piece (t := S1024x65) (1 : Fin 2) [⟨S1024x32, p0⟩, ⟨S1024x32, p1⟩, ⟨S1024x1, p2⟩] hc (ix2 r j)
        2 (by show 2 < 3; omega) S1024x1 p2 rfl rfl 64 rfl (ix2 r (0 : Fin 1)) ?_ ?_
      · intro b hb; match b, hb with | ⟨0, _⟩, _ => rfl | ⟨1, _⟩, hb => exact absurd rfl hb
      · show 64 + 0 = j.val; have := j.isLt; omega

/-- Entry `(r, j)` of the paired rows: `relu` of the state branch's row `r` for `j < 32`, of the next-state branch's
    row `1024 + r` for `32 ≤ j < 64`, and `1` at `j = 64`. -/
theorem paired_at (a : FVec Ideal S2048x32 .f32) (r : Fin 1024) (j : Fin 65) :
    (truncf .bf16
      (concatenate S1024x65 1
        [⟨S1024x32, extractStridedSlice S1024x32 ![0, 0] (maximumf a (broadcast S2048x32 (Scalar.ofBits (F := Ideal) .f32 0x00000000#32))) slices_S2048x32_o0_0_S1024x32⟩,
         ⟨S1024x32, extractStridedSlice S1024x32 ![1024, 0] (maximumf a (broadcast S2048x32 (Scalar.ofBits (F := Ideal) .f32 0x00000000#32))) slices_S2048x32_o1024_0_S1024x32⟩,
         ⟨S1024x1, broadcast S1024x1 (Scalar.ofBits (F := Ideal) .f32 0x3F800000#32)⟩]
        concatenates_S1024x32_S1024x32_S1024x1_S1024x65_d1)
      bitsLt_bf16_f32 : FVec Ideal S1024x65 .bf16) (ix2 r j)
      = snoc (n := 64) (paired (fun j' => max (a (ix2 (⟨r.val, by omega⟩ : Fin 2048) j')) 0)
                               (fun j' => max (a (ix2 (⟨1024 + r.val, by omega⟩ : Fin 2048) j')) 0)) 1 j := by
  rw [truncf_apply, concat3_at]
  by_cases h1 : j.val < 32
  · rw [dif_pos h1, snoc_paired_lo _ _ j h1]
    exact relu_slice_at a 0 _ r _ _ (by show r.val = 0 + r.val; omega)
  · rw [dif_neg h1]
    by_cases h2 : j.val < 64
    · rw [dif_pos h2, snoc_paired_hi _ _ j (by omega) h2]
      exact relu_slice_at a 1024 _ r _ _ rfl
    · rw [dif_neg h2, snoc_paired_last _ _ j h2]
      exact Ideal.ofBits_one_f32

end Cert.Siamese.Pair

end
-- ==== Proof.Layers.lean ====
/-
  The kernel's body, one grid step: two half-streams, each sending 2048 input rows to 1024 output rows through the
  two pairs of layers, the hidden units taken 512 at a time. First as vector operations (generic in the float
  instance: these are the body's own operations, regrouped by layer instead of by position in the text), then read
  at an entry on the extended reals, where a change of format is the identity and each matrix product is a sum.
-/
import proofs.«166245_g11802570129985_cont_fleet_79_12_alg».proof.Proof.Gen.KernelIdeal.Frame
import proofs.«166245_g11802570129985_cont_fleet_79_12_alg».proof.Proof.Mat
import proofs.«166245_g11802570129985_cont_fleet_79_12_alg».proof.Proof.Pair
import proofs.«166245_g11802570129985_cont_fleet_79_12_alg».proof.Proof.Spec
import Idealize.ShloMosaic.Lib.Pipeline.Value
import Idealize.ShloMosaic.Lib.ValueLayout
import Idealize.ShloMosaic.Lib.IdealHost

noncomputable section

namespace Cert.Siamese.Layers

open Cert.KernelIdeal Cert.KernelIdeal.Gen Idealize.ShloMosaic Idealize.ShloMosaic.ValueIdx Cert.Siamese

variable {F : FTy → Type} [FloatOps F]

/-- One chunk of the first pair of layers: `relu (xb · w1c) · w2c`, the 512 hidden units narrowed to bf16 between
    the two products. -/
def term12 (xb : FVec F S2048x33 .bf16) (w1c : Vec F S33x512 .bf16) (w2c : Vec F S512x32 .bf16) : FVec F S2048x32 .f32 :=
  matmul dot_S2048x512_S512x32_S2048x32_1_0_0_1_n_n none
    (maximumf
      (truncf .bf16 (matmul dot_S2048x33_S33x512_S2048x512_1_0_0_1_n_n none xb (shapeCast S33x512 w1c shapeCasts_S33x512_S33x512)
        (constant S2048x512 .f32 0x00000000#32)) bitsLt_bf16_f32)
      (broadcast S2048x512 (Scalar.ofBits .bf16 0x0000#16)))
    (shapeCast S512x32 w2c shapeCasts_S512x32_S512x32) (constant S2048x32 .f32 0x00000000#32)

/-- The first pair of layers before its `relu`: the second bias, then the eight chunks' contributions. -/
def acc2 (xb : FVec F S2048x33 .bf16) (x1 : Vec F S33x4096 .bf16) (x2 : Vec F S4096x32 .bf16) (x3 : Vec F S1x32 .f32) :
    FVec F S2048x32 .f32 :=
  addf (addf (addf (addf (addf (addf (addf (addf
    (broadcastTo S2048x32 (shapeCast S1x32 (View.ld x3 r0_1) shapeCasts_S1x32_S1x32) broadcasts_S1x32_S2048x32)
    (term12 xb (View.ld x1 r0_2) (View.ld x2 r0_3)))
    (term12 xb (View.ld x1 r0_4) (View.ld x2 r0_5)))
    (term12 xb (View.ld x1 r0_6) (View.ld x2 r0_7)))
    (term12 xb (View.ld x1 r0_8) (View.ld x2 r0_9)))
    (term12 xb (View.ld x1 r0_10) (View.ld x2 r0_11)))
    (term12 xb (View.ld x1 r0_12) (View.ld x2 r0_13)))
    (term12 xb (View.ld x1 r0_14) (View.ld x2 r0_15)))
    (term12 xb (View.ld x1 r0_16) (View.ld x2 r0_17))

/-- `relu`, then the two branches' rows side by side with a `1` appended, narrowed to bf16. -/
def pairUp (a : FVec F S2048x32 .f32) : FVec F S1024x65 .bf16 :=
  truncf .bf16
    (concatenate S1024x65 1
      [⟨S1024x32, extractStridedSlice S1024x32 ![0, 0] (maximumf a (broadcast S2048x32 (Scalar.ofBits .f32 0x00000000#32))) slices_S2048x32_o0_0_S1024x32⟩,
       ⟨S1024x32, extractStridedSlice S1024x32 ![1024, 0] (maximumf a (broadcast S2048x32 (Scalar.ofBits .f32 0x00000000#32))) slices_S2048x32_o1024_0_S1024x32⟩,
       ⟨S1024x1, broadcast S1024x1 (Scalar.ofBits .f32 0x3F800000#32)⟩]
      concatenates_S1024x32_S1024x32_S1024x1_S1024x65_d1)
    bitsLt_bf16_f32

/-- One chunk of the second pair of layers. -/
def term34 (u : FVec F S1024x65 .bf16) (w3c : Vec F S65x512 .bf16) (w4c : Vec F S512x128 .bf16) : FVec F S1024x128 .f32 :=
  matmul dot_S1024x512_S512x128_S1024x128_1_0_0_1_n_n none
    (maximumf
      (truncf .bf16 (matmul dot_S1024x65_S65x512_S1024x512_1_0_0_1_n_n none u (shapeCast S65x512 w3c shapeCasts_S65x512_S65x512)
        (constant S1024x512 .f32 0x00000000#32)) bitsLt_bf16_f32)
      (broadcast S1024x512 (Scalar.ofBits .bf16 0x0000#16)))
    (shapeCast S512x128 w4c shapeCasts_S512x128_S512x128) (constant S1024x128 .f32 0x00000000#32)

/-- The second pair of layers: the fourth bias, then the eight chunks' contributions. -/
def acc4 (u : FVec F S1024x65 .bf16) (x4 : Vec F S65x4096 .bf16) (x5 : Vec F S4096x128 .bf16) (x6 : Vec F S1x128 .f32) :
    FVec F S1024x128 .f32 :=
  addf (addf (addf (addf (addf (addf (addf (addf
    (broadcastTo S1024x128 (shapeCast S1x128 (View.ld x6 r0_18) shapeCasts_S1x128_S1x128) broadcasts_S1x128_S1024x128)
    (term34 u (View.ld x4 r0_19) (View.ld x5 r0_20)))
    (term34 u (View.ld x4 r0_21) (View.ld x5 r0_22)))
    (term34 u (View.ld x4 r0_23) (View.ld x5 r0_24)))
    (term34 u (View.ld x4 r0_25) (View.ld x5 r0_26)))
    (term34 u (View.ld x4 r0_27) (View.ld x5 r0_28)))
    (term34 u (View.ld x4 r0_29) (View.ld x5 r0_30)))
    (term34 u (View.ld x4 r0_31) (View.ld x5 r0_32)))
    (term34 u (View.ld x4 r0_33) (View.ld x5 r0_34))

/-- One half-stream: its 2048 input rows (1024 state rows, then the 1024 next-state rows) to its 1024 output rows. -/
def stream (xh : Vec F S2048x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) : FVec F S1024x128 .f32 :=
  acc4 (pairUp (acc2 (shapeCast S2048x33 xh shapeCasts_S2048x33_S2048x33) x1 x2 x3)) x4 x5 x6

/-- What the body leaves in the output block is the two half-streams' results, one above the other: the body's
    operations regrouped, nothing computed. -/
theorem out0_7_eq (x0 : Vec F S4096x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) :
    out0_7 x0 x1 x2 x3 x4 x5 x6
      = View.canon [⟨r0_37, stream (View.ld x0 r0_36) x1 x2 x3 x4 x5 x6⟩, ⟨r0_35, stream (View.ld x0 r0_0) x1 x2 x3 x4 x5 x6⟩] := rfl

/-! ## Read at an entry, on the extended reals -/

/-- Column `k` of the 512 columns loaded from column `o = 512 c` on is hidden unit `k` of chunk `c`. -/
theorem ld_cols {K : Nat} (x : (⟨2, ![K, 4096]⟩ : Shape).Idx → EReal) (c : Fin 8) (o : Nat) (ho : o = 512 * c.val)
    (inb : ∀ a, (![0, o] : Fin 2 → Nat) a + (![K, 512] : Fin 2 → Nat) a ≤ (⟨2, ![K, 4096]⟩ : Shape).size a)
    (j : Fin K) (k : Fin 512) :
    x ((Rect.unit (s := (⟨2, ![K, 4096]⟩ : Shape)) ![0, o] ![K, 512] inb).idx (ix2 j k)) = x (ix2 j (chunkIdx c k)) := by
  refine congrArg x (funext fun a => Fin.ext ?_)
  match a with
  | ⟨0, _⟩ => show 0 + 1 * j.val = j.val; omega
  | ⟨1, _⟩ => show o + 1 * k.val = 512 * c.val + k.val; omega

/-- Row `k` of the 512 rows loaded from row `o = 512 c` on is hidden unit `k` of chunk `c`. -/
theorem ld_rows {N : Nat} (x : (⟨2, ![4096, N]⟩ : Shape).Idx → EReal) (c : Fin 8) (o : Nat) (ho : o = 512 * c.val)
    (inb : ∀ a, (![o, 0] : Fin 2 → Nat) a + (![512, N] : Fin 2 → Nat) a ≤ (⟨2, ![4096, N]⟩ : Shape).size a)
    (k : Fin 512) (q : Fin N) :
    x ((Rect.unit (s := (⟨2, ![4096, N]⟩ : Shape)) ![o, 0] ![512, N] inb).idx (ix2 k q)) = x (ix2 (chunkIdx c k) q) := by
  refine congrArg x (funext fun a => Fin.ext ?_)
  match a with
  | ⟨0, _⟩ => show o + 1 * k.val = 512 * c.val + k.val; omega
  | ⟨1, _⟩ => show 0 + 1 * q.val = q.val; omega

/-- One chunk of the first pair of layers at an entry: the chunk's contribution `∑ k, relu (row · column k) · w2[k, q]`. -/
theorem term12_chunk (xb : FVec Ideal S2048x33 .bf16) (x1 : Vec Ideal S33x4096 .bf16) (x2 : Vec Ideal S4096x32 .bf16)
    (c : Fin 8) (o : Nat) (ho : o = 512 * c.val)
    (inb1 : ∀ a, (![0, o] : Fin 2 → Nat) a + S33x512.size a ≤ S33x4096.size a)
    (inb2 : ∀ a, (![o, 0] : Fin 2 → Nat) a + S512x32.size a ≤ S4096x32.size a) (p : Fin 2048) (q : Fin 32) :
    term12 xb (View.ld x1 (Rect.unit (s := S33x4096) ![0, o] S33x512.size inb1))
        (View.ld x2 (Rect.unit (s := S4096x32) ![o, 0] S512x32.size inb2)) (ix2 p q)
      = chunkTerm (fun j => xb (ix2 p j)) (fun j mm => x1 (ix2 j mm)) (fun mm q' => x2 (ix2 mm q')) q c := by
  unfold term12 chunkTerm
  refine (Mat.fromHidden12_at _ _ p q).trans (Finset.sum_congr rfl fun k _ => ?_)
  rw [shapeCast_self, shapeCast_self]
  refine congrArg₂ (· * ·) ?_ (ld_rows (N := 32) x2 c o ho inb2 k q)
  show max (matmul (φ₂ := .bf16) dot_S2048x33_S33x512_S2048x512_1_0_0_1_n_n none xb
      (View.ld x1 (Rect.unit (s := S33x4096) ![0, o] S33x512.size inb1)) (constant (F := Ideal) S2048x512 .f32 0x00000000#32) (ix2 p k))
      (Ideal.ofBits .bf16 0x0000#16) = _
  rw [Ideal.ofBits_zero_bf16, Mat.toHidden12_at]
  exact congrArg (max · 0) (Finset.sum_congr rfl fun j _ => congrArg (xb (ix2 p j) * ·) (ld_cols (K := 33) x1 c o ho inb1 j k))

/-- A load through the whole one-row buffer, broadcast down the rows: entry `(p, q)` is the row's entry `q`. -/
theorem bias_row_at {A N : Nat} (x : Vec Ideal (⟨2, ![1, N]⟩ : Shape) .f32)
    (inb : ∀ a, (![0, 0] : Fin 2 → Nat) a + (![1, N] : Fin 2 → Nat) a ≤ (⟨2, ![1, N]⟩ : Shape).size a)
    (hc : (⟨2, ![1, N]⟩ : Shape).ShapeCasts ⟨2, ![1, N]⟩) (hb : (⟨2, ![1, N]⟩ : Shape).Broadcasts ⟨2, ![A, N]⟩)
    (p : Fin A) (q : Fin N) :
    broadcastTo (⟨2, ![A, N]⟩ : Shape)
        (shapeCast (⟨2, ![1, N]⟩ : Shape) (View.ld x (Rect.unit (s := (⟨2, ![1, N]⟩ : Shape)) ![0, 0] ![1, N] inb)) hc) hb (ix2 p q)
      = x (ix2 (0 : Fin 1) q) := by
  rw [broadcastTo_1b_ab_apply]
  refine (congrFun (shapeCast_self (s := (⟨2, ![1, N]⟩ : Shape))
    (View.ld x (Rect.unit (s := (⟨2, ![1, N]⟩ : Shape)) ![0, 0] ![1, N] inb)) hc) (ix2 (0 : Fin 1) q)).trans ?_
  refine congrArg x (funext fun a => Fin.ext ?_)
  match a with
  | ⟨0, _⟩ => rfl
  | ⟨1, _⟩ => show 0 + 1 * q.val = q.val; omega

/-- The first pair of layers before its `relu`, at an entry: the bias, then the eight chunks' contributions. -/
theorem acc2_at (xb : FVec Ideal S2048x33 .bf16) (x1 : Vec Ideal S33x4096 .bf16) (x2 : Vec Ideal S4096x32 .bf16)
    (x3 : Vec Ideal S1x32 .f32) (p : Fin 2048) (q : Fin 32) :
    acc2 xb x1 x2 x3 (ix2 p q)
      = layerPair (fun j => xb (ix2 p j)) (fun j mm => x1 (ix2 j mm)) (fun mm q' => x2 (ix2 mm q'))
          (fun q' => x3 (ix2 (0 : Fin 1) q')) q := by
  have hb : broadcastTo S2048x32 (shapeCast S1x32 (View.ld x3 r0_1) shapeCasts_S1x32_S1x32) broadcasts_S1x32_S2048x32 (ix2 p q)
      = x3 (ix2 (0 : Fin 1) q) := bias_row_at (A := 2048) (N := 32) x3 _ _ _ p q
  have h0 : term12 xb (View.ld x1 r0_2) (View.ld x2 r0_3) (ix2 p q) = _ := term12_chunk xb x1 x2 (0 : Fin 8) 0 rfl _ _ p q
  have h1 : term12 xb (View.ld x1 r0_4) (View.ld x2 r0_5) (ix2 p q) = _ := term12_chunk xb x1 x2 (1 : Fin 8) 512 rfl _ _ p q
  have h2 : term12 xb (View.ld x1 r0_6) (View.ld x2 r0_7) (ix2 p q) = _ := term12_chunk xb x1 x2 (2 : Fin 8) 1024 rfl _ _ p q
  have h3 : term12 xb (View.ld x1 r0_8) (View.ld x2 r0_9) (ix2 p q) = _ := term12_chunk xb x1 x2 (3 : Fin 8) 1536 rfl _ _ p q
  have h4 : term12 xb (View.ld x1 r0_10) (View.ld x2 r0_11) (ix2 p q) = _ := term12_chunk xb x1 x2 (4 : Fin 8) 2048 rfl _ _ p q
  have h5 : term12 xb (View.ld x1 r0_12) (View.ld x2 r0_13) (ix2 p q) = _ := term12_chunk xb x1 x2 (5 : Fin 8) 2560 rfl _ _ p q
  have h6 : term12 xb (View.ld x1 r0_14) (View.ld x2 r0_15) (ix2 p q) = _ := term12_chunk xb x1 x2 (6 : Fin 8) 3072 rfl _ _ p q
  have h7 : term12 xb (View.ld x1 r0_16) (View.ld x2 r0_17) (ix2 p q) = _ := term12_chunk xb x1 x2 (7 : Fin 8) 3584 rfl _ _ p q
  unfold acc2 layerPair chunked
  simp only [addf_apply]
  rw [hb, h0, h1, h2, h3, h4, h5, h6, h7]

/-- One chunk of the second pair of layers at an entry. -/
theorem term34_chunk (u : FVec Ideal S1024x65 .bf16) (x4 : Vec Ideal S65x4096 .bf16) (x5 : Vec Ideal S4096x128 .bf16)
    (c : Fin 8) (o : Nat) (ho : o = 512 * c.val)
    (inb1 : ∀ a, (![0, o] : Fin 2 → Nat) a + S65x512.size a ≤ S65x4096.size a)
    (inb2 : ∀ a, (![o, 0] : Fin 2 → Nat) a + S512x128.size a ≤ S4096x128.size a) (p : Fin 1024) (q : Fin 128) :
    term34 u (View.ld x4 (Rect.unit (s := S65x4096) ![0, o] S65x512.size inb1))
        (View.ld x5 (Rect.unit (s := S4096x128) ![o, 0] S512x128.size inb2)) (ix2 p q)
      = chunkTerm (fun j => u (ix2 p j)) (fun j mm => x4 (ix2 j mm)) (fun mm q' => x5 (ix2 mm q')) q c := by
  unfold term34 chunkTerm
  refine (Mat.fromHidden34_at _ _ p q).trans (Finset.sum_congr rfl fun k _ => ?_)
  rw [shapeCast_self, shapeCast_self]
  refine congrArg₂ (· * ·) ?_ (ld_rows (N := 128) x5 c o ho inb2 k q)
  show max (matmul (φ₂ := .bf16) dot_S1024x65_S65x512_S1024x512_1_0_0_1_n_n none u
      (View.ld x4 (Rect.unit (s := S65x4096) ![0, o] S65x512.size inb1)) (constant (F := Ideal) S1024x512 .f32 0x00000000#32) (ix2 p k))
      (Ideal.ofBits .bf16 0x0000#16) = _
  rw [Ideal.ofBits_zero_bf16, Mat.toHidden34_at]
  exact congrArg (max · 0) (Finset.sum_congr rfl fun j _ => congrArg (u (ix2 p j) * ·) (ld_cols (K := 65) x4 c o ho inb1 j k))

/-- The second pair of layers at an entry: the bias, then the eight chunks' contributions. -/
theorem acc4_at (u : FVec Ideal S1024x65 .bf16) (x4 : Vec Ideal S65x4096 .bf16) (x5 : Vec Ideal S4096x128 .bf16)
    (x6 : Vec Ideal S1x128 .f32) (p : Fin 1024) (q : Fin 128) :
    acc4 u x4 x5 x6 (ix2 p q)
      = layerPair (fun j => u (ix2 p j)) (fun j mm => x4 (ix2 j mm)) (fun mm q' => x5 (ix2 mm q'))
          (fun q' => x6 (ix2 (0 : Fin 1) q')) q := by
  have hb : broadcastTo S1024x128 (shapeCast S1x128 (View.ld x6 r0_18) shapeCasts_S1x128_S1x128) broadcasts_S1x128_S1024x128 (ix2 p q)
      = x6 (ix2 (0 : Fin 1) q) := bias_row_at (A := 1024) (N := 128) x6 _ _ _ p q
  have h0 : term34 u (View.ld x4 r0_19) (View.ld x5 r0_20) (ix2 p q) = _ := term34_chunk u x4 x5 (0 : Fin 8) 0 rfl _ _ p q
  have h1 : term34 u (View.ld x4 r0_21) (View.ld x5 r0_22) (ix2 p q) = _ := term34_chunk u x4 x5 (1 : Fin 8) 512 rfl _ _ p q
  have h2 : term34 u (View.ld x4 r0_23) (View.ld x5 r0_24) (ix2 p q) = _ := term34_chunk u x4 x5 (2 : Fin 8) 1024 rfl _ _ p q
  have h3 : term34 u (View.ld x4 r0_25) (View.ld x5 r0_26) (ix2 p q) = _ := term34_chunk u x4 x5 (3 : Fin 8) 1536 rfl _ _ p q
  have h4 : term34 u (View.ld x4 r0_27) (View.ld x5 r0_28) (ix2 p q) = _ := term34_chunk u x4 x5 (4 : Fin 8) 2048 rfl _ _ p q
  have h5 : term34 u (View.ld x4 r0_29) (View.ld x5 r0_30) (ix2 p q) = _ := term34_chunk u x4 x5 (5 : Fin 8) 2560 rfl _ _ p q
  have h6 : term34 u (View.ld x4 r0_31) (View.ld x5 r0_32) (ix2 p q) = _ := term34_chunk u x4 x5 (6 : Fin 8) 3072 rfl _ _ p q
  have h7 : term34 u (View.ld x4 r0_33) (View.ld x5 r0_34) (ix2 p q) = _ := term34_chunk u x4 x5 (7 : Fin 8) 3584 rfl _ _ p q
  unfold acc4 layerPair chunked
  simp only [addf_apply]
  rw [hb, h0, h1, h2, h3, h4, h5, h6, h7]

/-- The paired rows at an entry. -/
theorem pairUp_at (a : FVec Ideal S2048x32 .f32) (r : Fin 1024) (j : Fin 65) :
    pairUp a (ix2 r j)
      = snoc (n := 64) (paired (fun j' => max (a (ix2 (⟨r.val, by omega⟩ : Fin 2048) j')) 0)
                               (fun j' => max (a (ix2 (⟨1024 + r.val, by omega⟩ : Fin 2048) j')) 0)) 1 j :=
  Pair.paired_at a r j

/-- One half-stream at an entry: the fused network of `Spec` on the half-stream's rows. -/
theorem stream_at (xh : Vec Ideal S2048x33 .bf16) (x1 : Vec Ideal S33x4096 .bf16) (x2 : Vec Ideal S4096x32 .bf16)
    (x3 : Vec Ideal S1x32 .f32) (x4 : Vec Ideal S65x4096 .bf16) (x5 : Vec Ideal S4096x128 .bf16) (x6 : Vec Ideal S1x128 .f32)
    (r : Fin 1024) (q : Fin 128) :
    stream xh x1 x2 x3 x4 x5 x6 (ix2 r q)
      = streamNet (fun p j => xh (ix2 p j)) (fun j mm => x1 (ix2 j mm)) (fun mm j => x2 (ix2 mm j))
          (fun j => x3 (ix2 (0 : Fin 1) j)) (fun k mm => x4 (ix2 k mm)) (fun mm q' => x5 (ix2 mm q'))
          (fun q' => x6 (ix2 (0 : Fin 1) q')) r q := by
  unfold stream streamNet
  rw [acc4_at, shapeCast_self]
  refine congrArg (fun u => layerPair (K := 65) u _ _ _ q) (funext fun j => ?_)
  rw [pairUp_at]
  simp only [acc2_at]

/-- Two half-streams' results one above the other, as one function of the output block's index. -/
def stacked (S1 S2 : S1024x128.Idx → EReal) : S2048x128.Idx → EReal := fun y =>
  if h : (y 0).val < 1024 then S1 (ix2 (⟨(y 0).val, h⟩ : Fin 1024) (⟨(y 1).val, (y 1).isLt⟩ : Fin 128))
  else S2 (ix2 (⟨(y 0).val - 1024, by have h2 : (y 0).val < 2048 := (y 0).isLt; omega⟩ : Fin 1024) (⟨(y 1).val, (y 1).isLt⟩ : Fin 128))

/-- The output block at an entry: row `r` belongs to the first half-stream (input rows 0 to 2047) when `r < 1024`, to
    the second (input rows 2048 to 4095) otherwise. Each of the two stores is the part of `stacked` its rectangle names,
    and the two rectangles cover the block. -/
theorem out0_7_at (x0 : Vec Ideal S4096x33 .bf16) (x1 : Vec Ideal S33x4096 .bf16) (x2 : Vec Ideal S4096x32 .bf16)
    (x3 : Vec Ideal S1x32 .f32) (x4 : Vec Ideal S65x4096 .bf16) (x5 : Vec Ideal S4096x128 .bf16) (x6 : Vec Ideal S1x128 .f32)
    (r : Fin 2048) (q : Fin 128) :
    out0_7 x0 x1 x2 x3 x4 x5 x6 (ix2 r q)
      = if h : r.val < 1024 then stream (View.ld x0 r0_0) x1 x2 x3 x4 x5 x6 (ix2 (⟨r.val, h⟩ : Fin 1024) q)
        else stream (View.ld x0 r0_36) x1 x2 x3 x4 x5 x6 (ix2 (⟨r.val - 1024, by omega⟩ : Fin 1024) q) := by
  rw [out0_7_eq]
  refine (View.canon_apply_of_pieces
    (stacked (stream (View.ld x0 r0_0) x1 x2 x3 x4 x5 x6) (stream (View.ld x0 r0_36) x1 x2 x3 x4 x5 x6)) _ ?_ (ix2 r q)
    (cover0_7 _ _ _)).trans rfl
  intro p hp x
  rcases List.mem_cons.mp hp with rfl | hp
  · have hx : ¬ ((r0_37.emb x) 0).val < 1024 := by
      show ¬ 1024 + 1 * (x 0).val < 1024
      omega
    unfold stacked
    rw [dif_neg hx]
    refine congrArg (stream (View.ld x0 r0_36) x1 x2 x3 x4 x5 x6) (funext fun a => Fin.ext ?_)
    match a with
    | ⟨0, _⟩ => show (x 0).val = 1024 + 1 * (x 0).val - 1024; omega
    | ⟨1, _⟩ => show (x 1).val = 0 + 1 * (x 1).val; omega
  · rw [List.mem_singleton] at hp
    subst hp
    have hx : ((r0_35.emb x) 0).val < 1024 := by
      show 0 + 1 * (x 0).val < 1024
      have h1 : (x 0).val < 1024 := (x 0).isLt
      omega
    unfold stacked
    rw [dif_pos hx]
    refine congrArg (stream (View.ld x0 r0_0) x1 x2 x3 x4 x5 x6) (funext fun a => Fin.ext ?_)
    match a with
    | ⟨0, _⟩ => show (x 0).val = 0 + 1 * (x 0).val; omega
    | ⟨1, _⟩ => show (x 1).val = 0 + 1 * (x 1).val; omega

/-- Row `p` of the 2048 rows loaded from row `o` of a grid step's input block is the block's row `o + p`. -/
theorem ld_half (x0 : Vec Ideal S4096x33 .bf16) (o : Nat)
    (inb : ∀ a, (![o, 0] : Fin 2 → Nat) a + S2048x33.size a ≤ S4096x33.size a) (p : Fin 2048) (j : Fin 33)
    (h : o + p.val < 4096) :
    View.ld x0 (Rect.unit (s := S4096x33) ![o, 0] S2048x33.size inb) (ix2 p j) = x0 (ix2 (⟨o + p.val, h⟩ : Fin 4096) j) := by
  refine congrArg x0 (funext fun a => Fin.ext ?_)
  match a with
  | ⟨0, _⟩ => show o + 1 * p.val = o + p.val; omega
  | ⟨1, _⟩ => show 0 + 1 * j.val = j.val; omega

end Cert.Siamese.Layers

end
-- ==== Proof.Blocks.lean ====
/-
  Where each window's block sits in its array. The stacked input is read 4096 rows per grid step and the output
  written 2048 rows per grid step, block `t` starting at row `4096 t`, `2048 t`; the six other windows are whole
  arrays at every step. The eight output blocks tile the output array.
-/
import proofs.«166245_g11802570129985_cont_fleet_79_12_alg».proof.Proof.Gen.KernelIdeal.Value
import Idealize.ShloMosaic.Lib.Pipeline.Value
import Idealize.ShloMosaic.Lib.ValueIdx

noncomputable section

namespace Cert.Siamese.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The printed index maps over the eight grid steps

Windows 0 and 7 move down their arrays one block per step; the six others stay at block (0, 0). -/

theorem idx_in : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_out : ∀ t : Fin cfg0.N, win0_7.index t (0 : Fin 2) = t.val ∧ win0_7.index t (1 : Fin 2) = 0 :=
  (by decide +kernel : ∀ t : Fin grid0.N, _)

/-- An index of the output array is in grid step `t`'s block iff each coordinate is in the block's range on its axis. -/
theorem mem_out_blk (t : Fin cfg0.N) (i : S16384x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v19).slice (win0_7.rect t)).set ↔ _
  rw [View.set_slice_whole, Rect.mem_set_unit]
  exact Iff.rfl

/-- Row `p` of grid step `t`'s input block is row `4096 t + p` of the stacked input. -/
theorem iblk0_at (c : Dev nD) (t : Fin cfg0.N) (p : Fin 4096) (j : Fin 33) (h : 4096 * t.val + p.val < 32768) :
    iblk m c 0 t (ix2 p j) = (V m c main_v8 : S32768x33.Idx → EReal) (ix2 (⟨4096 * t.val + p.val, h⟩ : Fin 32768) j) := by
  obtain ⟨e0, e1⟩ := idx_in t
  show (V m c main_v8 : S32768x33.Idx → EReal) (((cfg0.win 0).blk t).view.emb (ix2 p j)) = _
  congr 1
  funext d; apply Fin.ext
  match d with
  | ⟨0, _⟩ => show win0_0.index t (0 : Fin 2) * 4096 + 1 * p.val = 4096 * t.val + p.val; omega
  | ⟨1, _⟩ => show win0_0.index t (1 : Fin 2) * 33 + 1 * j.val = j.val; omega

theorem iblk1_at (c : Dev nD) (t : Fin cfg0.N) (i : Fin 33) (k : Fin 4096) :
    iblk m c 1 t (ix2 i k) = (V m c main_v11 : S33x4096.Idx → EReal) (ix2 i k) := by
  obtain ⟨e0, e1⟩ := idx_w1 t
  show (V m c main_v11 : S33x4096.Idx → EReal) (((cfg0.win 1).blk t).view.emb (ix2 i k)) = _
  congr 1
  funext d; apply Fin.ext
  match d with
  | ⟨0, _⟩ => show win0_1.index t (0 : Fin 2) * 33 + 1 * (i).val = (i).val; omega
  | ⟨1, _⟩ => show win0_1.index t (1 : Fin 2) * 4096 + 1 * (k).val = (k).val; omega

theorem iblk2_at (c : Dev nD) (t : Fin cfg0.N) (k : Fin 4096) (j : Fin 32) :
    iblk m c 2 t (ix2 k j) = (V m c main_v15 : S4096x32.Idx → EReal) (ix2 k j) := by
  obtain ⟨e0, e1⟩ := idx_w2 t
  show (V m c main_v15 : S4096x32.Idx → EReal) (((cfg0.win 2).blk t).view.emb (ix2 k j)) = _
  congr 1
  funext d; apply Fin.ext
  match d with
  | ⟨0, _⟩ => show win0_2.index t (0 : Fin 2) * 4096 + 1 * (k).val = (k).val; omega
  | ⟨1, _⟩ => show win0_2.index t (1 : Fin 2) * 32 + 1 * (j).val = (j).val; omega

theorem iblk3_at (c : Dev nD) (t : Fin cfg0.N) (j : Fin 32) :
    iblk m c 3 t (ix2 (0 : Fin 1) j) = (V m c main_v16 : S1x32.Idx → EReal) (ix2 (0 : Fin 1) j) := by
  obtain ⟨e0, e1⟩ := idx_w3 t
  show (V m c main_v16 : S1x32.Idx → EReal) (((cfg0.win 3).blk t).view.emb (ix2 (0 : Fin 1) j)) = _
  congr 1
  funext d; apply Fin.ext
  match d with
  | ⟨0, _⟩ => show win0_3.index t (0 : Fin 2) * 1 + 1 * ((0 : Fin 1)).val = ((0 : Fin 1)).val; omega
  | ⟨1, _⟩ => show win0_3.index t (1 : Fin 2) * 32 + 1 * (j).val = (j).val; omega

theorem iblk4_at (c : Dev nD) (t : Fin cfg0.N) (i : Fin 65) (k : Fin 4096) :
    iblk m c 4 t (ix2 i k) = (V m c main_v14 : S65x4096.Idx → EReal) (ix2 i k) := by
  obtain ⟨e0, e1⟩ := idx_w4 t
  show (V m c main_v14 : S65x4096.Idx → EReal) (((cfg0.win 4).blk t).view.emb (ix2 i k)) = _
  congr 1
  funext d; apply Fin.ext
  match d with
  | ⟨0, _⟩ => show win0_4.index t (0 : Fin 2) * 65 + 1 * (i).val = (i).val; omega
  | ⟨1, _⟩ => show win0_4.index t (1 : Fin 2) * 4096 + 1 * (k).val = (k).val; omega

theorem iblk5_at (c : Dev nD) (t : Fin cfg0.N) (k : Fin 4096) (q : Fin 128) :
    iblk m c 5 t (ix2 k q) = (V m c main_v17 : S4096x128.Idx → EReal) (ix2 k q) := by
  obtain ⟨e0, e1⟩ := idx_w5 t
  show (V m c main_v17 : S4096x128.Idx → EReal) (((cfg0.win 5).blk t).view.emb (ix2 k q)) = _
  congr 1
  funext d; apply Fin.ext
  match d with
  | ⟨0, _⟩ => show win0_5.index t (0 : Fin 2) * 4096 + 1 * (k).val = (k).val; omega
  | ⟨1, _⟩ => show win0_5.index t (1 : Fin 2) * 128 + 1 * (q).val = (q).val; omega

theorem iblk6_at (c : Dev nD) (t : Fin cfg0.N) (q : Fin 128) :
    iblk m c 6 t (ix2 (0 : Fin 1) q) = (V m c main_v18 : S1x128.Idx → EReal) (ix2 (0 : Fin 1) q) := by
  obtain ⟨e0, e1⟩ := idx_w6 t
  show (V m c main_v18 : S1x128.Idx → EReal) (((cfg0.win 6).blk t).view.emb (ix2 (0 : Fin 1) q)) = _
  congr 1
  funext d; apply Fin.ext
  match d with
  | ⟨0, _⟩ => show win0_6.index t (0 : Fin 2) * 1 + 1 * ((0 : Fin 1)).val = ((0 : Fin 1)).val; omega
  | ⟨1, _⟩ => show win0_6.index t (1 : Fin 2) * 128 + 1 * (q).val = (q).val; omega

/-- Row `r` of grid step `t`'s output block is row `2048 t + r` of the output array. -/
theorem out_emb (t : Fin cfg0.N) (r : Fin 2048) (q : Fin 128) (h : 2048 * t.val + r.val < 16384) :
    ((cfg0.win 7).blk t).view.emb (ix2 r q) = (ix2 (⟨2048 * t.val + r.val, h⟩ : Fin 16384) q : S16384x128.Idx) := by
  obtain ⟨e0, e1⟩ := idx_out t
  funext d; apply Fin.ext
  match d with
  | ⟨0, _⟩ => show win0_7.index t (0 : Fin 2) * 2048 + 1 * r.val = 2048 * t.val + r.val; omega
  | ⟨1, _⟩ => show win0_7.index t (1 : Fin 2) * 128 + 1 * q.val = q.val; omega

/-- Every entry of the output array is in the block of some grid step that writes back. -/
theorem cover_out (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 8 := rfl
  obtain ⟨t, ht⟩ : ∃ t : Fin cfg0.N, t.val = (i 0).val / 2048 := ⟨⟨(i 0).val / 2048, by rw [hN]; omega⟩, rfl⟩
  obtain ⟨e0, e1⟩ := idx_out t
  refine ⟨t, flush0_7 t, ?_⟩
  rw [mem_out_blk]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 128 ≤ (i 1).val ∧ (i 1).val < win0_7.index t (1 : Fin 2) * 128 + 128
    omega

end Cert.Siamese.Blocks

end
-- ==== Proof.HostSide.lean ====
/-
  What the kernel's windows hold when the region is entered, read at an index: the host operations in front of the
  region append a column of ones to each state array and stack the two arrays in the order the grid steps read
  them, append each first-layer bias to its matrix as a last row, and pass the other arrays through unchanged.
-/
import proofs.«166245_g11802570129985_cont_fleet_79_12_alg».proof.Proof.Gen.KernelIdeal.Frame
import proofs.«166245_g11802570129985_cont_fleet_79_12_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost

noncomputable section

namespace Cert.Siamese.HostSide

open Cert.KernelIdeal Cert.KernelIdeal.Gen Idealize.ShloMosaic Idealize.ShloMosaic.TcCoe Idealize.SL.Sem
open Idealize.ShloMosaic.ValueIdx Cert.Siamese

/-! ## Layout operations read at an index -/

/-- A column of ones appended to a matrix: row `r` reads the matrix's row followed by `1`. -/
theorem concat_col_one_apply {n0 n : ℕ} (x : (⟨2, ![n0, n]⟩ : Shape).Idx → EReal) (o : (⟨2, ![n0, 1]⟩ : Shape).Idx → EReal)
    (ho : ∀ k, o k = 1)
    (h : Shape.Concatenates [(⟨2, ![n0, n]⟩ : Shape), ⟨2, ![n0, 1]⟩] ⟨2, ![n0, n + 1]⟩ 1) (r : Fin n0) (j : Fin (n + 1)) :
    concatenate ⟨2, ![n0, n + 1]⟩ 1 [⟨⟨2, ![n0, n]⟩, x⟩, ⟨⟨2, ![n0, 1]⟩, o⟩] h (ix2 r j) = snoc (fun i => x (ix2 r i)) 1 j := by
  unfold snoc
  by_cases hj : j.val < n
  · rw [dif_pos hj]
    exact concatenate_pair_apply_left (1 : Fin 2) x o h (ix2 r j) rfl (ix2 r ⟨j.val, hj⟩) (by
      intro b; match b with | ⟨0, _⟩ => rfl | ⟨1, _⟩ => rfl)
  · rw [dif_neg hj]
    refine (concatenate_pair_apply_right (1 : Fin 2) x o h (ix2 r j) rfl rfl (ix2 r (0 : Fin 1)) ?_ ?_).trans (ho _)
    · intro b hb; match b, hb with | ⟨0, _⟩, _ => rfl | ⟨1, _⟩, hb => exact absurd rfl hb
    · show 0 + n = j.val; have := j.isLt; omega

/-- One row appended to a matrix: row `i` of the result is the matrix's row, or the appended row when `i` is the last. -/
theorem concat_row_one_apply {n k : ℕ} (x : (⟨2, ![n, k]⟩ : Shape).Idx → EReal) (o : (⟨2, ![1, k]⟩ : Shape).Idx → EReal)
    (h : Shape.Concatenates [(⟨2, ![n, k]⟩ : Shape), ⟨2, ![1, k]⟩] ⟨2, ![n + 1, k]⟩ 0) (i : Fin (n + 1)) (mm : Fin k) :
    concatenate ⟨2, ![n + 1, k]⟩ 0 [⟨⟨2, ![n, k]⟩, x⟩, ⟨⟨2, ![1, k]⟩, o⟩] h (ix2 i mm)
      = snoc (fun i' => x (ix2 i' mm)) (o (ix2 (0 : Fin 1) mm)) i := by
  unfold snoc
  by_cases hi : i.val < n
  · rw [dif_pos hi]
    exact concatenate_pair_apply_left (0 : Fin 2) x o h (ix2 i mm) rfl (ix2 ⟨i.val, hi⟩ mm) (by
      intro b; match b with | ⟨0, _⟩ => rfl | ⟨1, _⟩ => rfl)
  · rw [dif_neg hi]
    refine concatenate_pair_apply_right (0 : Fin 2) x o h (ix2 i mm) rfl rfl (ix2 (0 : Fin 1) mm) ?_ ?_
    · intro b hb; match b, hb with | ⟨0, _⟩, hb => exact absurd rfl hb | ⟨1, _⟩, _ => rfl
    · show 0 + n = i.val; have := i.isLt; omega

/-- A vector broadcast to one row reads the vector. -/
theorem bcast_row_apply {k : ℕ} (hk1 : k ≠ 1) (b : (⟨1, ![k]⟩ : Shape).Idx → EReal)
    (h : (⟨1, ![k]⟩ : Shape).BroadcastsInDim ⟨2, ![1, k]⟩ ![1]) (u : Fin 1) (mm : Fin k) :
    broadcastInDim ⟨2, ![1, k]⟩ ![1] h b (ix2 u mm) = b (ix1 mm) :=
  broadcastInDim_apply _ h b _ (ix1 mm) (by intro a; match a with | ⟨0, _⟩ => exact (if_neg hk1).symm)

/-- Two arrays of 16384 rows stacked in groups: stacked row `R` lies in group `R / 2048`; the group's first 1024 rows
    are the first array's rows `R / 2048 * 1024 + R % 1024`, its last 1024 the second array's rows of the same numbers. -/
theorem stack_apply (y1 y2 : S16384x33.Idx → EReal)
    (h1 : S16384x33.ShapeCasts S16x1024x33)
    (hc : Shape.Concatenates [S16x1024x33, S16x1024x33] S16x2048x33 1)
    (h2 : S16x2048x33.ShapeCasts S32768x33) (R : Fin 32768) (j : Fin 33) :
    shapeCast S32768x33 (concatenate S16x2048x33 1 [⟨S16x1024x33, shapeCast S16x1024x33 y1 h1⟩, ⟨S16x1024x33, shapeCast S16x1024x33 y2 h1⟩] hc) h2 (ix2 R j)
      = if R.val % 2048 < 1024 then y1 (ix2 ⟨R.val / 2048 * 1024 + R.val % 1024, by omega⟩ j)
        else y2 (ix2 ⟨R.val / 2048 * 1024 + R.val % 1024, by omega⟩ j) := by
  have hR := R.isLt
  refine (shapeCast_apply _ h2 (ix2 R j) (ix3 (⟨R.val / 2048, by omega⟩ : Fin 16) (⟨R.val % 2048, by omega⟩ : Fin 2048) j) (by
    rw [Shape.rowMajor_val_three, Shape.rowMajor_val_two]
    show (R.val / 2048 * 2048 + R.val % 2048) * 33 + j.val = R.val * 33 + j.val
    omega)).trans ?_
  by_cases hs : R.val % 2048 < 1024
  · rw [if_pos hs]
    refine (concatenate_pair_apply_left (t := S16x2048x33) (s₁ := S16x1024x33) (s₂ := S16x1024x33) (1 : Fin 3) _ _ hc _ rfl (ix3 (⟨R.val / 2048, by omega⟩ : Fin 16) (⟨R.val % 2048, hs⟩ : Fin 1024) j) (by
      intro b; match b with | ⟨0, _⟩ => rfl | ⟨1, _⟩ => rfl | ⟨2, _⟩ => rfl)).trans ?_
    exact shapeCast_apply y1 h1 _ _ (by
      rw [Shape.rowMajor_val_three, Shape.rowMajor_val_two]
      show (R.val / 2048 * 1024 + R.val % 1024) * 33 + j.val = (R.val / 2048 * 1024 + R.val % 2048) * 33 + j.val
      omega)
  · rw [if_neg hs]
    refine (concatenate_pair_apply_right (t := S16x2048x33) (s₁ := S16x1024x33) (s₂ := S16x1024x33) (1 : Fin 3) _ _ hc _ rfl rfl (ix3 (⟨R.val / 2048, by omega⟩ : Fin 16) (⟨R.val % 2048 - 1024, by omega⟩ : Fin 1024) j) (by
      intro b hb; match b, hb with | ⟨0, _⟩, _ => rfl | ⟨1, _⟩, hb => exact absurd rfl hb | ⟨2, _⟩, _ => rfl) (by
      show R.val % 2048 - 1024 + 1024 = R.val % 2048; omega)).trans ?_
    exact shapeCast_apply y2 h1 _ _ (by
      rw [Shape.rowMajor_val_three, Shape.rowMajor_val_two]
      show (R.val / 2048 * 1024 + R.val % 1024) * 33 + j.val = (R.val / 2048 * 1024 + (R.val % 2048 - 1024)) * 33 + j.val
      omega)

variable (m : (ℓ : Loc nD τ sig) → Buf (Elt Ideal) ℓ)

/-- Row `R` of the stacked input: stacked rows come in groups of 2048, the first 1024 of a group being state rows
    and the last 1024 the next-state rows with the same row numbers; every row ends in a `1`. -/
theorem xall_at (c : Dev nD) (R : Fin 32768) (j : Fin 33) :
    (V m c main_v8 : S32768x33.Idx → EReal) (ix2 R j)
      = snoc (n := 32) (fun i => if R.val % 2048 < 1024
          then (m ((c : Thread nD τ).loc main_arg0) : S16384x32.Idx → EReal) (ix2 ⟨R.val / 2048 * 1024 + R.val % 1024, by omega⟩ i)
          else (m ((c : Thread nD τ).loc main_arg1) : S16384x32.Idx → EReal) (ix2 ⟨R.val / 2048 * 1024 + R.val % 1024, by omega⟩ i)) 1 j := by
  have e : (V m c main_v8 : S32768x33.Idx → EReal)
      = shapeCast S32768x33 (concatenate S16x2048x33 1
          [⟨S16x1024x33, shapeCast S16x1024x33 (truncf .bf16 (concatenate S16384x33 1
            [⟨S16384x32, (m ((c : Thread nD τ).loc main_arg0) : FVec Ideal S16384x32 .f32)⟩,
             ⟨S16384x1, broadcastInDim S16384x1 ![] bcast_S_S16384x1 (constant (F := Ideal) S_ .f32 0x3F800000#32)⟩]
            concatenates_S16384x32_S16384x1_S16384x33_d1 : FVec Ideal S16384x33 .f32) bitsLt_bf16_f32 : FVec Ideal S16384x33 .bf16) shapeCasts_S16384x33_S16x1024x33⟩,
           ⟨S16x1024x33, shapeCast S16x1024x33 (truncf .bf16 (concatenate S16384x33 1
            [⟨S16384x32, (m ((c : Thread nD τ).loc main_arg1) : FVec Ideal S16384x32 .f32)⟩,
             ⟨S16384x1, broadcastInDim S16384x1 ![] bcast_S_S16384x1 (constant (F := Ideal) S_ .f32 0x3F800000#32)⟩]
            concatenates_S16384x32_S16384x1_S16384x33_d1 : FVec Ideal S16384x33 .f32) bitsLt_bf16_f32 : FVec Ideal S16384x33 .bf16) shapeCasts_S16384x33_S16x1024x33⟩]
          concatenates_S16x1024x33_S16x1024x33_S16x2048x33_d1) shapeCasts_S16x2048x33_S32768x33 := by
    dsimp only [Gen.V, Gen.hostOps0]; after_results <;> rfl
  have ho : ∀ k, broadcastInDim S16384x1 ![] bcast_S_S16384x1 (constant (F := Ideal) S_ .f32 0x3F800000#32) k = (1 : EReal) := fun k =>
    (broadcastInDim_apply _ bcast_S_S16384x1 _ k ix0 (fun a => a.elim0)).trans Ideal.ofBits_one_f32
  rw [e, stack_apply]
  by_cases hs : R.val % 2048 < 1024
  · simp only [if_pos hs]
    exact concat_col_one_apply (n := 32) _ _ ho concatenates_S16384x32_S16384x1_S16384x33_d1 _ j
  · simp only [if_neg hs]
    exact concat_col_one_apply (n := 32) _ _ ho concatenates_S16384x32_S16384x1_S16384x33_d1 _ j

/-- The first layer's matrix with its bias as row 32. -/
theorem w1aug_at (c : Dev nD) (i : Fin 33) (mm : Fin 4096) :
    (V m c main_v11 : S33x4096.Idx → EReal) (ix2 i mm)
      = snoc (n := 32) (fun i' => (m ((c : Thread nD τ).loc main_arg2) : S32x4096.Idx → EReal) (ix2 i' mm))
          ((m ((c : Thread nD τ).loc main_arg3) : S4096.Idx → EReal) (ix1 mm)) i := by
  have e : (V m c main_v11 : S33x4096.Idx → EReal)
      = (truncf .bf16 (concatenate S33x4096 0
          [⟨S32x4096, (m ((c : Thread nD τ).loc main_arg2) : FVec Ideal S32x4096 .f32)⟩,
           ⟨S1x4096, broadcastInDim S1x4096 ![1] bcast_S4096_S1x4096_1 (m ((c : Thread nD τ).loc main_arg3) : FVec Ideal S4096 .f32)⟩]
          concatenates_S32x4096_S1x4096_S33x4096_d0 : FVec Ideal S33x4096 .f32) bitsLt_bf16_f32 : FVec Ideal S33x4096 .bf16) := by
    dsimp only [Gen.V, Gen.hostOps0]; after_results <;> rfl
  rw [e]
  refine (concat_row_one_apply (n := 32) _ _ concatenates_S32x4096_S1x4096_S33x4096_d0 i mm).trans ?_
  rw [bcast_row_apply (by decide)]

/-- The third layer's matrix with its bias as row 64. -/
theorem w3aug_at (c : Dev nD) (k : Fin 65) (mm : Fin 4096) :
    (V m c main_v14 : S65x4096.Idx → EReal) (ix2 k mm)
      = snoc (n := 64) (fun k' => (m ((c : Thread nD τ).loc main_arg6) : S64x4096.Idx → EReal) (ix2 k' mm))
          ((m ((c : Thread nD τ).loc main_arg7) : S4096.Idx → EReal) (ix1 mm)) k := by
  have e : (V m c main_v14 : S65x4096.Idx → EReal)
      = (truncf .bf16 (concatenate S65x4096 0
          [⟨S64x4096, (m ((c : Thread nD τ).loc main_arg6) : FVec Ideal S64x4096 .f32)⟩,
           ⟨S1x4096, broadcastInDim S1x4096 ![1] bcast_S4096_S1x4096_1 (m ((c : Thread nD τ).loc main_arg7) : FVec Ideal S4096 .f32)⟩]
          concatenates_S64x4096_S1x4096_S65x4096_d0 : FVec Ideal S65x4096 .f32) bitsLt_bf16_f32 : FVec Ideal S65x4096 .bf16) := by
    dsimp only [Gen.V, Gen.hostOps0]; after_results <;> rfl
  rw [e]
  refine (concat_row_one_apply (n := 64) _ _ concatenates_S64x4096_S1x4096_S65x4096_d0 k mm).trans ?_
  rw [bcast_row_apply (by decide)]

/-- The second layer's matrix is passed through (a change of format is the identity on extended reals). -/
theorem w2_eq (c : Dev nD) : (V m c main_v15 : S4096x32.Idx → EReal) = m ((c : Thread nD τ).loc main_arg4) := by
  dsimp only [Gen.V, Gen.hostOps0]; after_results; rfl

/-- The fourth layer's matrix is passed through. -/
theorem w4_eq (c : Dev nD) : (V m c main_v17 : S4096x128.Idx → EReal) = m ((c : Thread nD τ).loc main_arg8) := by
  dsimp only [Gen.V, Gen.hostOps0]; after_results; rfl

/-- The second layer's bias as one row. -/
theorem b2_at (c : Dev nD) (j : Fin 32) :
    (V m c main_v16 : S1x32.Idx → EReal) (ix2 (0 : Fin 1) j) = (m ((c : Thread nD τ).loc main_arg5) : S32.Idx → EReal) (ix1 j) := by
  have e : (V m c main_v16 : S1x32.Idx → EReal)
      = shapeCast S1x32 (m ((c : Thread nD τ).loc main_arg5) : S32.Idx → EReal) shapeCasts_S32_S1x32 := by
    dsimp only [Gen.V, Gen.hostOps0]; after_results; rfl
  rw [e]
  exact shapeCast_a_1a_apply _ _ 0 j

/-- The fourth layer's bias as one row. -/
theorem b4_at (c : Dev nD) (q : Fin 128) :
    (V m c main_v18 : S1x128.Idx → EReal) (ix2 (0 : Fin 1) q) = (m ((c : Thread nD τ).loc main_arg9) : S128.Idx → EReal) (ix1 q) := by
  have e : (V m c main_v18 : S1x128.Idx → EReal)
      = shapeCast S1x128 (m ((c : Thread nD τ).loc main_arg9) : S128.Idx → EReal) shapeCasts_S128_S1x128 := by
    dsimp only [Gen.V, Gen.hostOps0]; after_results; rfl
  rw [e]
  exact shapeCast_a_1a_apply _ _ 0 q

end Cert.Siamese.HostSide

end
-- ==== Proof.Rows.lean ====
/-
  A grid step's blocks in terms of the argument arrays: input row `p` of step `t` is a state row (first half of its
  group of 2048) or a next-state row (second half) with a `1` appended, the row number `2048 t + p / 2048 · 1024 + p % 1024`
  either way; the first and third matrices carry their bias as a last row; the rest are the arguments themselves.
-/
import proofs.«166245_g11802570129985_cont_fleet_79_12_alg».proof.Proof.Blocks
import proofs.«166245_g11802570129985_cont_fleet_79_12_alg».proof.Proof.HostSide

noncomputable section

namespace Cert.Siamese.Rows

open Cert.KernelIdeal Cert.KernelIdeal.Gen Idealize.ShloMosaic Idealize.ShloMosaic.TcCoe Idealize.SL.Sem
open Idealize.ShloMosaic.ValueIdx Cert.Siamese

variable (m : (ℓ : Loc nD τ sig) → Buf (Elt Ideal) ℓ)

/-- An input row in the first half of its group is a state row with `1` appended. -/
theorem state_row (c : Dev nD) (t : Fin cfg0.N) (p : Fin 4096) (hp : p.val % 2048 < 1024)
    (h : 2048 * t.val + (p.val / 2048 * 1024 + p.val % 1024) < 16384) :
    (fun j : Fin 33 => iblk m c 0 t (ix2 p j))
      = snoc (n := 32) (fun i => (m ((c : Thread nD τ).loc main_arg0) : S16384x32.Idx → EReal)
          (ix2 (⟨2048 * t.val + (p.val / 2048 * 1024 + p.val % 1024), h⟩ : Fin 16384) i)) 1 := by
  have ht : t.val < 8 := t.isLt
  have hpl : p.val < 4096 := p.isLt
  have hc : (4096 * t.val + p.val) % 2048 < 1024 := by omega
  funext j
  show iblk m c 0 t (ix2 p j) = _
  rw [Blocks.iblk0_at m c t p j (by omega), HostSide.xall_at]
  refine congrArg (fun f => snoc (n := 32) f 1 j) (funext fun i => ?_)
  rw [if_pos hc]
  refine congrArg (fun r : Fin 16384 => (m ((c : Thread nD τ).loc main_arg0) : S16384x32.Idx → EReal) (ix2 r i)) (Fin.ext ?_)
  show (4096 * t.val + p.val) / 2048 * 1024 + (4096 * t.val + p.val) % 1024 = 2048 * t.val + (p.val / 2048 * 1024 + p.val % 1024)
  omega

/-- An input row in the second half of its group is a next-state row with `1` appended. -/
theorem next_row (c : Dev nD) (t : Fin cfg0.N) (p : Fin 4096) (hp : ¬ p.val % 2048 < 1024)
    (h : 2048 * t.val + (p.val / 2048 * 1024 + p.val % 1024) < 16384) :
    (fun j : Fin 33 => iblk m c 0 t (ix2 p j))
      = snoc (n := 32) (fun i => (m ((c : Thread nD τ).loc main_arg1) : S16384x32.Idx → EReal)
          (ix2 (⟨2048 * t.val + (p.val / 2048 * 1024 + p.val % 1024), h⟩ : Fin 16384) i)) 1 := by
  have ht : t.val < 8 := t.isLt
  have hpl : p.val < 4096 := p.isLt
  have hc : ¬ (4096 * t.val + p.val) % 2048 < 1024 := by omega
  funext j
  show iblk m c 0 t (ix2 p j) = _
  rw [Blocks.iblk0_at m c t p j (by omega), HostSide.xall_at]
  refine congrArg (fun f => snoc (n := 32) f 1 j) (funext fun i => ?_)
  rw [if_neg hc]
  refine congrArg (fun r : Fin 16384 => (m ((c : Thread nD τ).loc main_arg1) : S16384x32.Idx → EReal) (ix2 r i)) (Fin.ext ?_)
  show (4096 * t.val + p.val) / 2048 * 1024 + (4096 * t.val + p.val) % 1024 = 2048 * t.val + (p.val / 2048 * 1024 + p.val % 1024)
  omega

theorem w1_blk (c : Dev nD) (t : Fin cfg0.N) :
    (fun (i : Fin 33) (k : Fin 4096) => iblk m c 1 t (ix2 i k))
      = fun i k => snoc (n := 32) (fun i' => (m ((c : Thread nD τ).loc main_arg2) : S32x4096.Idx → EReal) (ix2 i' k))
          ((m ((c : Thread nD τ).loc main_arg3) : S4096.Idx → EReal) (ix1 k)) i := by
  funext i k
  show iblk m c 1 t (ix2 i k) = _
  rw [Blocks.iblk1_at, HostSide.w1aug_at]

theorem w2_blk (c : Dev nD) (t : Fin cfg0.N) :
    (fun (k : Fin 4096) (j : Fin 32) => iblk m c 2 t (ix2 k j))
      = fun k j => (m ((c : Thread nD τ).loc main_arg4) : S4096x32.Idx → EReal) (ix2 k j) := by
  funext k j
  show iblk m c 2 t (ix2 k j) = _
  rw [Blocks.iblk2_at, HostSide.w2_eq]

theorem b2_blk (c : Dev nD) (t : Fin cfg0.N) :
    (fun j : Fin 32 => iblk m c 3 t (ix2 (0 : Fin 1) j))
      = fun j => (m ((c : Thread nD τ).loc main_arg5) : S32.Idx → EReal) (ix1 j) := by
  funext j
  show iblk m c 3 t (ix2 (0 : Fin 1) j) = _
  rw [Blocks.iblk3_at, HostSide.b2_at]

theorem w3_blk (c : Dev nD) (t : Fin cfg0.N) :
    (fun (i : Fin 65) (k : Fin 4096) => iblk m c 4 t (ix2 i k))
      = fun i k => snoc (n := 64) (fun i' => (m ((c : Thread nD τ).loc main_arg6) : S64x4096.Idx → EReal) (ix2 i' k))
          ((m ((c : Thread nD τ).loc main_arg7) : S4096.Idx → EReal) (ix1 k)) i := by
  funext i k
  show iblk m c 4 t (ix2 i k) = _
  rw [Blocks.iblk4_at, HostSide.w3aug_at]

theorem w4_blk (c : Dev nD) (t : Fin cfg0.N) :
    (fun (k : Fin 4096) (q : Fin 128) => iblk m c 5 t (ix2 k q))
      = fun k q => (m ((c : Thread nD τ).loc main_arg8) : S4096x128.Idx → EReal) (ix2 k q) := by
  funext k q
  show iblk m c 5 t (ix2 k q) = _
  rw [Blocks.iblk5_at, HostSide.w4_eq]

theorem b4_blk (c : Dev nD) (t : Fin cfg0.N) :
    (fun q : Fin 128 => iblk m c 6 t (ix2 (0 : Fin 1) q))
      = fun q => (m ((c : Thread nD τ).loc main_arg9) : S128.Idx → EReal) (ix1 q) := by
  funext q
  show iblk m c 6 t (ix2 (0 : Fin 1) q) = _
  rw [Blocks.iblk6_at, HostSide.b4_at]

end Cert.Siamese.Rows

end
-- ==== Proof.Final.lean ====
/-
  From the body to the whole result array. A half-stream of grid step `t` (input rows from `o = 0` or `o = 2048` of
  the step's block) computes, at its local row `rr`, the network at batch row `2048 t + o / 2 + rr`: its input rows
  `rr` and `1024 + rr` are that batch row of the state and of the next state with a `1` appended, and the extended
  matrices carry the first-layer biases, so the fused form is the layer-by-layer form (`streamNet_eq`). Hence each
  grid step writes back its block of `G`, the eight blocks tile the array, and the array ends holding `G`.
-/
import proofs.«166245_g11802570129985_cont_fleet_79_12_alg».proof.Proof.Gen.KernelIdeal.Value
import proofs.«166245_g11802570129985_cont_fleet_79_12_alg».proof.Proof.Layers
import proofs.«166245_g11802570129985_cont_fleet_79_12_alg».proof.Proof.Rows
import proofs.«166245_g11802570129985_cont_fleet_79_12_alg».proof.Proof.Spec

noncomputable section

namespace Cert.Siamese.Final

open Cert.KernelIdeal Cert.KernelIdeal.Gen Idealize.ShloMosaic Idealize.ShloMosaic.TcCoe Idealize.SL.Sem
open Idealize.ShloMosaic.Pipeline (Dat)
open Idealize.ShloMosaic.ValueIdx Cert.Siamese

variable (m : (ℓ : Loc nD τ sig) → Buf (Elt Ideal) ℓ) (ρ : Dev nD → PrngReg)

/-- The network of the argument arrays as launched. -/
abbrev GK (c : Dev nD) : S16384x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- A half-stream of grid step `t`, at its local row `rr`, is the network at batch row `n = 2048 t + o / 2 + rr`. -/
theorem half_stream_eq (c : Dev nD) (t : Fin cfg0.N) (o : Nat) (ho : o = 0 ∨ o = 2048)
    (inb : ∀ a, (![o, 0] : Fin 2 → Nat) a + S2048x33.size a ≤ S4096x33.size a)
    (rr : Fin 1024) (q : Fin 128) (n : Fin 16384) (hn : n.val = 2048 * t.val + o / 2 + rr.val) :
    Layers.stream (View.ld (iblk m c 0 t) (Rect.unit (s := S4096x33) ![o, 0] S2048x33.size inb))
        (iblk m c 1 t) (iblk m c 2 t) (iblk m c 3 t) (iblk m c 4 t) (iblk m c 5 t) (iblk m c 6 t) (ix2 rr q)
      = GK m c (ix2 n q) := by
  have ht : t.val < 8 := t.isLt
  rw [Layers.stream_at, Rows.w1_blk, Rows.w2_blk, Rows.b2_blk, Rows.w3_blk, Rows.w4_blk, Rows.b4_blk]
  refine (streamNet_eq _ rr
    (fun i => ((m ((c : Thread nD τ).loc main_arg0)) : S16384x32.Idx → EReal) (ix2 n i)) (fun i => ((m ((c : Thread nD τ).loc main_arg1)) : S16384x32.Idx → EReal) (ix2 n i))
    ?_ ?_
    (fun i k => ((m ((c : Thread nD τ).loc main_arg2)) : S32x4096.Idx → EReal) (ix2 i k)) (fun k => ((m ((c : Thread nD τ).loc main_arg3)) : S4096.Idx → EReal) (ix1 k))
    (fun k j => ((m ((c : Thread nD τ).loc main_arg4)) : S4096x32.Idx → EReal) (ix2 k j)) (fun j => ((m ((c : Thread nD τ).loc main_arg5)) : S32.Idx → EReal) (ix1 j))
    (fun i k => ((m ((c : Thread nD τ).loc main_arg6)) : S64x4096.Idx → EReal) (ix2 i k)) (fun k => ((m ((c : Thread nD τ).loc main_arg7)) : S4096.Idx → EReal) (ix1 k))
    (fun k q' => ((m ((c : Thread nD τ).loc main_arg8)) : S4096x128.Idx → EReal) (ix2 k q')) (fun q' => ((m ((c : Thread nD τ).loc main_arg9)) : S128.Idx → EReal) (ix1 q')) q).trans rfl
  · -- the half-stream's row `rr` is the state's row `n`
    funext j
    show View.ld (iblk m c 0 t) (Rect.unit (s := S4096x33) ![o, 0] S2048x33.size inb) (ix2 (⟨rr.val, by omega⟩ : Fin 2048) j) = _
    rw [Layers.ld_half (iblk m c 0 t) o inb ⟨rr.val, by omega⟩ j (by rcases ho with rfl | rfl <;> (show _ + rr.val < 4096; omega))]
    have hrow := Rows.state_row m c t ⟨o + rr.val, by rcases ho with rfl | rfl <;> (show _ + rr.val < 4096; omega)⟩
      (by rcases ho with rfl | rfl <;> (show (_ + rr.val) % 2048 < 1024; omega))
      (by rcases ho with rfl | rfl <;> (show 2048 * t.val + ((_ + rr.val) / 2048 * 1024 + (_ + rr.val) % 1024) < 16384; omega))
    refine (congrFun hrow j).trans ?_
    have hidx : (⟨2048 * t.val + ((o + rr.val) / 2048 * 1024 + (o + rr.val) % 1024),
        by rcases ho with rfl | rfl <;> omega⟩ : Fin 16384) = n :=
      Fin.ext (by rcases ho with rfl | rfl <;> (show 2048 * t.val + ((_ + rr.val) / 2048 * 1024 + (_ + rr.val) % 1024) = n.val; omega))
    exact congrArg (fun k : Fin 16384 => snoc (n := 32) (fun i => ((m ((c : Thread nD τ).loc main_arg0)) : S16384x32.Idx → EReal) (ix2 k i)) 1 j) hidx
  · -- the half-stream's row `1024 + rr` is the next state's row `n`
    funext j
    show View.ld (iblk m c 0 t) (Rect.unit (s := S4096x33) ![o, 0] S2048x33.size inb) (ix2 (⟨1024 + rr.val, by omega⟩ : Fin 2048) j) = _
    rw [Layers.ld_half (iblk m c 0 t) o inb ⟨1024 + rr.val, by omega⟩ j (by rcases ho with rfl | rfl <;> (show _ + (1024 + rr.val) < 4096; omega))]
    have hrow := Rows.next_row m c t ⟨o + (1024 + rr.val), by rcases ho with rfl | rfl <;> (show _ + (1024 + rr.val) < 4096; omega)⟩
      (by rcases ho with rfl | rfl <;> (show ¬ (_ + (1024 + rr.val)) % 2048 < 1024; omega))
      (by rcases ho with rfl | rfl <;> (show 2048 * t.val + ((_ + (1024 + rr.val)) / 2048 * 1024 + (_ + (1024 + rr.val)) % 1024) < 16384; omega))
    refine (congrFun hrow j).trans ?_
    have hidx : (⟨2048 * t.val + ((o + (1024 + rr.val)) / 2048 * 1024 + (o + (1024 + rr.val)) % 1024),
        by rcases ho with rfl | rfl <;> omega⟩ : Fin 16384) = n :=
      Fin.ext (by rcases ho with rfl | rfl <;> (show 2048 * t.val + ((_ + (1024 + rr.val)) / 2048 * 1024 + (_ + (1024 + rr.val)) % 1024) = n.val; omega))
    exact congrArg (fun k : Fin 16384 => snoc (n := 32) (fun i => ((m ((c : Thread nD τ).loc main_arg1)) : S16384x32.Idx → EReal) (ix2 k i)) 1 j) hidx

/-- What grid step `t` writes back is block `t` of the network of the argument arrays. -/
theorem flushed_eq (c : Dev nD) (t : Fin cfg0.N) :
    (dats m 0 c).flushed 7 t = ((cfg0.win 7).blk t).view.read (Elt Ideal) (GK m c) := by
  rw [Cert.KernelIdeal.Value.flushed7]
  funext y
  obtain ⟨r, q, rfl⟩ : ∃ (r : Fin 2048) (q : Fin 128), y = ix2 r q := ⟨y 0, y 1, eq_ix2 y⟩
  have ht : t.val < 8 := t.isLt
  show out0_7 (iblk m c 0 t) (iblk m c 1 t) (iblk m c 2 t) (iblk m c 3 t) (iblk m c 4 t) (iblk m c 5 t) (iblk m c 6 t) (ix2 r q)
      = GK m c (((cfg0.win 7).blk t).view.emb (ix2 r q))
  rw [Blocks.out_emb t r q (by omega), Layers.out0_7_at]
  split
  · rename_i h
    exact half_stream_eq m c t 0 (Or.inl rfl) _ ⟨r.val, h⟩ q _ (by show 2048 * t.val + r.val = 2048 * t.val + 0 / 2 + r.val; omega)
  · rename_i h
    exact half_stream_eq m c t 2048 (Or.inr rfl) _ ⟨r.val - 1024, by omega⟩ q _
      (by show 2048 * t.val + r.val = 2048 * t.val + 2048 / 2 + (r.val - 1024); omega)

/-- The result array after the run is the network of the argument arrays. -/
theorem final (c : Dev nD) : (dats m 0 c).arrAt 7 cfg0.N = GK m c :=
  (dats m 0 c).arrAt_eq_of_cover 7 (GK m c) (fun t _ => flushed_eq m c t) Blocks.cover_out

/-- The kernel's run with its result named: the network of the arguments, the arguments unchanged. -/
theorem run : θ_run defs (onTc (τ := τ) (main (F := Ideal))) ⟨m, fun _ => 0, ρ⟩ fun r => ∀ c : Dev nD,
      r.2.mem ((c : Thread nD τ).loc main_v19) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Siamese.Final

end
-- ==== Proof.RefSide.lean ====
/-
  The reference's result, stage by stage, is the network `G` of the argument arrays: each `dot_general` is the sum
  over its contracted axis, each bias is broadcast down the rows and added, each `relu` is `max · 0`, and the two
  branches' outputs are laid side by side.
-/
import proofs.«166245_g11802570129985_cont_fleet_79_12_alg».proof.Proof.Gen.ReferenceIdeal.Read
import proofs.«166245_g11802570129985_cont_fleet_79_12_alg».proof.Proof.Spec
import Idealize.ShloMosaic.Lib.Pipeline.Value
import Idealize.ShloMosaic.Lib.ValueIdx
import Idealize.ShloMosaic.PureOps.Ideal.Laws

noncomputable section

namespace Cert.Siamese.RefSide

open Cert.ReferenceIdeal Cert.ReferenceIdeal.Gen Idealize.ShloMosaic Idealize.ShloMosaic.TcCoe Idealize.SL.Sem
open Idealize.ShloMosaic.ValueIdx Cert.Siamese

/-! ## The generated index functions at coordinates

Each contraction reads its left operand at (row, contracted coordinate) and its right operand at (contracted
coordinate, column); each bias is read at the column. -/

theorem lidx0 (n : Fin 16384) (m : Fin 4096) (k : Fin 32) : Read.lidx_main_v0 (ix2 n m) k = ix2 n k :=
  funext fun a => Fin.ext (by match a with | ⟨0, _⟩ => rfl | ⟨1, _⟩ => rfl)
theorem ridx0 (n : Fin 16384) (m : Fin 4096) (k : Fin 32) : Read.ridx_main_v0 (ix2 n m) k = ix2 k m :=
  funext fun a => Fin.ext (by match a with | ⟨0, _⟩ => rfl | ⟨1, _⟩ => rfl)
theorem bidx2 (n : Fin 16384) (m : Fin 4096) : Read.idx_main_v1 (Read.idx_main_v2 (ix2 n m)) = ix1 m :=
  funext fun a => Fin.ext (by match a with | ⟨0, _⟩ => rfl)

theorem lidx5 (n : Fin 16384) (j : Fin 32) (m : Fin 4096) : Read.lidx_main_v5 (ix2 n j) m = ix2 n m :=
  funext fun a => Fin.ext (by match a with | ⟨0, _⟩ => rfl | ⟨1, _⟩ => rfl)
theorem ridx5 (n : Fin 16384) (j : Fin 32) (m : Fin 4096) : Read.ridx_main_v5 (ix2 n j) m = ix2 m j :=
  funext fun a => Fin.ext (by match a with | ⟨0, _⟩ => rfl | ⟨1, _⟩ => rfl)
theorem bidx7 (n : Fin 16384) (j : Fin 32) : Read.idx_main_v6 (Read.idx_main_v7 (ix2 n j)) = ix1 j :=
  funext fun a => Fin.ext (by match a with | ⟨0, _⟩ => rfl)

theorem lidx21 (n : Fin 16384) (m : Fin 4096) (k : Fin 64) : Read.lidx_main_v21 (ix2 n m) k = ix2 n k :=
  funext fun a => Fin.ext (by match a with | ⟨0, _⟩ => rfl | ⟨1, _⟩ => rfl)
theorem ridx21 (n : Fin 16384) (m : Fin 4096) (k : Fin 64) : Read.ridx_main_v21 (ix2 n m) k = ix2 k m :=
  funext fun a => Fin.ext (by match a with | ⟨0, _⟩ => rfl | ⟨1, _⟩ => rfl)
theorem bidx23 (n : Fin 16384) (m : Fin 4096) : Read.idx_main_v22 (Read.idx_main_v23 (ix2 n m)) = ix1 m :=
  funext fun a => Fin.ext (by match a with | ⟨0, _⟩ => rfl)

theorem lidx26 (n : Fin 16384) (q : Fin 128) (m : Fin 4096) : Read.lidx_main_v26 (ix2 n q) m = ix2 n m :=
  funext fun a => Fin.ext (by match a with | ⟨0, _⟩ => rfl | ⟨1, _⟩ => rfl)
theorem ridx26 (n : Fin 16384) (q : Fin 128) (m : Fin 4096) : Read.ridx_main_v26 (ix2 n q) m = ix2 m q :=
  funext fun a => Fin.ext (by match a with | ⟨0, _⟩ => rfl | ⟨1, _⟩ => rfl)
theorem bidx28 (n : Fin 16384) (q : Fin 128) : Read.idx_main_v27 (Read.idx_main_v28 (ix2 n q)) = ix1 q :=
  funext fun a => Fin.ext (by match a with | ⟨0, _⟩ => rfl)

/-! ## A branch, layer by layer -/

/-- The first layer of a branch on the rows `x`: the hidden units of row `n`. -/
theorem hidden_stage (x : (⟨S16384x32, .f32⟩ : BufTy).Contents (Elt Ideal)) (x2 : (⟨S32x4096, .f32⟩ : BufTy).Contents (Elt Ideal))
    (x3 : (⟨S4096, .f32⟩ : BufTy).Contents (Elt Ideal)) (n : Fin 16384) (m : Fin 4096) :
    Read.val_main_v4 (F := Ideal) x x2 x3 (ix2 n m)
      = hidden (fun k m => x2 (ix2 k m)) (fun m => x3 (ix1 m)) (fun k => x (ix2 n k)) m := by
  rw [Read.val_main_v4_apply, Read.val_main_v3_apply, Read.val_main_v0_apply, Read.val_main_v2_apply,
    Read.val_main_v1_apply, Read.val_main_call0_v0_apply, Read.val_main_call0_cst_apply, bidx2]
  simp only [lidx0, ridx0, Ideal.addf_def, Ideal.maximumf_def, Ideal.ofBits_def, Ideal.ofBits_zero_f32]
  rfl

/-- The second layer of a branch on the rows `x`: the output of row `n`. -/
theorem embed_stage (x : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal)) (x5 : (⟨S32, .f32⟩ : BufTy).Contents (Elt Ideal)) (n : Fin 16384) (j : Fin 32) :
    Read.val_main_v9 (F := Ideal) x x2 x3 x4 x5 (ix2 n j)
      = embed (fun k m => x2 (ix2 k m)) (fun m => x3 (ix1 m)) (fun m j => x4 (ix2 m j)) (fun j => x5 (ix1 j))
          (fun k => x (ix2 n k)) j := by
  rw [Read.val_main_v9_apply, Read.val_main_v8_apply, Read.val_main_v5_apply, Read.val_main_v7_apply,
    Read.val_main_v6_apply, Read.val_main_call1_v0_apply, Read.val_main_call1_cst_apply, bidx7]
  simp only [lidx5, ridx5, hidden_stage, Ideal.addf_def, Ideal.maximumf_def, Ideal.ofBits_def, Ideal.ofBits_zero_f32]
  rfl

/-- The second branch is the first branch's program on the other rows. -/
theorem second_branch (x : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal)) (x5 : (⟨S32, .f32⟩ : BufTy).Contents (Elt Ideal)) :
    Read.val_main_v19 (F := Ideal) x x2 x3 x4 x5 = Read.val_main_v9 (F := Ideal) x x2 x3 x4 x5 := rfl

/-! ## The two outputs side by side -/

/-- Two arrays of 32 columns joined along the columns: row `n` of the result is the two rows side by side. -/
theorem concat_pair (a : (⟨S16384x32, .f32⟩ : BufTy).Contents (Elt Ideal)) (b : (⟨S16384x32, .f32⟩ : BufTy).Contents (Elt Ideal))
    (h : Shape.Concatenates [S16384x32, S16384x32] S16384x64 1) (n : Fin 16384) (k : Fin 64) :
    concatenate S16384x64 1 [⟨S16384x32, a⟩, ⟨S16384x32, b⟩] h (ix2 n k)
      = paired (fun j => a (ix2 n j)) (fun j => b (ix2 n j)) k := by
  unfold paired
  split
  · next hk =>
    exact concatenate_pair_apply_left (1 : Fin S16384x64.rank) a b h (ix2 n k) rfl (ix2 n ⟨k.val, hk⟩)
      (fun c => by match c with | ⟨0, _⟩ => rfl | ⟨1, _⟩ => rfl)
  · next hk =>
    exact concatenate_pair_apply_right (1 : Fin S16384x64.rank) a b h (ix2 n k) rfl rfl (ix2 n ⟨k.val - 32, by omega⟩)
      (fun c hc => by match c, hc with | ⟨0, _⟩, _ => rfl | ⟨1, _⟩, hc => exact absurd rfl hc)
      (by show (k.val - 32) + 32 = k.val; omega)

/-- The joined array at row `n`: the two branches' outputs of that row side by side. -/
theorem paired_stage (x0 : (⟨S16384x32, .f32⟩ : BufTy).Contents (Elt Ideal)) (x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal)) (x5 : (⟨S32, .f32⟩ : BufTy).Contents (Elt Ideal)) (n : Fin 16384) (k : Fin 64) :
    Read.val_main_v20 (F := Ideal) x0 x1 x2 x3 x4 x5 (ix2 n k)
      = paired
          (embed (fun k m => x2 (ix2 k m)) (fun m => x3 (ix1 m)) (fun m j => x4 (ix2 m j)) (fun j => x5 (ix1 j)) (fun k => x0 (ix2 n k)))
          (embed (fun k m => x2 (ix2 k m)) (fun m => x3 (ix1 m)) (fun m j => x4 (ix2 m j)) (fun j => x5 (ix1 j)) (fun k => x1 (ix2 n k)))
          k := by
  unfold Read.val_main_v20
  rw [concat_pair, second_branch]
  simp only [embed_stage]

/-! ## The predictor -/

/-- The predictor's hidden units of row `n`. -/
theorem hidden3_stage (x0 : (⟨S16384x32, .f32⟩ : BufTy).Contents (Elt Ideal)) (x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal))
    (n : Fin 16384) (m : Fin 4096) :
    Read.val_main_v25 (F := Ideal) x0 x1 x2 x3 x4 x5 x6 x7 (ix2 n m)
      = hidden3 (fun k m => x6 (ix2 k m)) (fun m => x7 (ix1 m))
          (paired
            (embed (fun k m => x2 (ix2 k m)) (fun m => x3 (ix1 m)) (fun m j => x4 (ix2 m j)) (fun j => x5 (ix1 j)) (fun k => x0 (ix2 n k)))
            (embed (fun k m => x2 (ix2 k m)) (fun m => x3 (ix1 m)) (fun m j => x4 (ix2 m j)) (fun j => x5 (ix1 j)) (fun k => x1 (ix2 n k))))
          m := by
  rw [Read.val_main_v25_apply, Read.val_main_v24_apply, Read.val_main_v21_apply, Read.val_main_v23_apply,
    Read.val_main_v22_apply, Read.val_main_call4_v0_apply, Read.val_main_call4_cst_apply, bidx23]
  simp only [lidx21, ridx21, paired_stage, Ideal.addf_def, Ideal.maximumf_def, Ideal.ofBits_def, Ideal.ofBits_zero_f32]
  rfl

/-- The reference's last stage is the network of its arguments. -/
theorem ref_eq (x0 x1 : (⟨S16384x32, .f32⟩ : BufTy).Contents (Elt Ideal)) (x2 : (⟨S32x4096, .f32⟩ : BufTy).Contents (Elt Ideal))
    (x3 : (⟨S4096, .f32⟩ : BufTy).Contents (Elt Ideal)) (x4 : (⟨S4096x32, .f32⟩ : BufTy).Contents (Elt Ideal))
    (x5 : (⟨S32, .f32⟩ : BufTy).Contents (Elt Ideal)) (x6 : (⟨S64x4096, .f32⟩ : BufTy).Contents (Elt Ideal))
    (x7 : (⟨S4096, .f32⟩ : BufTy).Contents (Elt Ideal)) (x8 : (⟨S4096x128, .f32⟩ : BufTy).Contents (Elt Ideal))
    (x9 : (⟨S128, .f32⟩ : BufTy).Contents (Elt Ideal)) :
    Cert.ReferenceIdeal.Read.val_main_v29 (F := Ideal) x0 x1 x2 x3 x4 x5 x6 x7 x8 x9 = G x0 x1 x2 x3 x4 x5 x6 x7 x8 x9 := by
  funext i
  obtain ⟨n, q, rfl⟩ : ∃ (n : Fin 16384) (q : Fin 128), i = ix2 n q := ⟨i 0, i 1, eq_ix2 i⟩
  rw [Read.val_main_v29_apply, Read.val_main_v26_apply, Read.val_main_v28_apply, Read.val_main_v27_apply, bidx28]
  simp only [lidx26, ridx26, hidden3_stage, Ideal.addf_def]
  rfl

end Cert.Siamese.RefSide

end
-- ==== Proof.lean ====
/-
  The kernel computes a two-branch network: each of the two state arrays goes through `relu (relu (x · W1 + b1) · W2 + b2)`,
  the two 32-wide results are laid side by side, and the predictor `relu (u · W3 + b3) · W4 + b4` gives the 128-wide
  result, one row per batch row. The reference does exactly this, layer by layer, on the whole arrays.

  The kernel fuses the four layers: it appends a column of ones to the inputs and the first-layer biases as a last
  row of `W1` and `W3` (so that `(x, 1) · (W; b) = x · W + 1 · b`), stacks the two state arrays so that each grid step
  reads 2048 batch rows of both, takes the 4096 hidden units 512 at a time (bias first, then the eight chunks'
  contributions one after another), and narrows intermediate values to bf16. On the extended reals a change of format
  is the identity, so the two programs differ only by the grouping and order of sums and by `1 · b = b`: laws of a
  commutative monoid, which hold at the infinities too. The precondition (finite inputs) is therefore never opened.

  `algebraic`: both runs end with the result array equal to ONE function `G` of the argument arrays (`Spec.lean`) — the
  kernel's by reading its body at an entry (`Layers.lean`), its host operations at an index (`HostSide.lean`), and its
  eight output blocks as the tiles of the array (`Blocks.lean`, `Final.lean`); the reference's stage by stage
  (`RefSide.lean`). `preserves`: the idealization rewrote no operation, so there is nothing to state. The frames of
  the two kernel programs are the generated ones; the reference's frame is its run with the result dropped.
-/
import proofs.«166245_g11802570129985_cont_fleet_79_12_alg».proof.Defs
import proofs.«166245_g11802570129985_cont_fleet_79_12_alg».proof.Proof.Gen.Kernel
import proofs.«166245_g11802570129985_cont_fleet_79_12_alg».proof.Proof.Gen.Kernel.Skeleton
import proofs.«166245_g11802570129985_cont_fleet_79_12_alg».proof.Proof.Gen.Kernel.Launch
import proofs.«166245_g11802570129985_cont_fleet_79_12_alg».proof.Proof.Gen.Kernel.Points
import proofs.«166245_g11802570129985_cont_fleet_79_12_alg».proof.Proof.Gen.Kernel.Frame
import proofs.«166245_g11802570129985_cont_fleet_79_12_alg».proof.Proof.Gen.KernelIdeal
import proofs.«166245_g11802570129985_cont_fleet_79_12_alg».proof.Proof.Gen.KernelIdeal.Skeleton
import proofs.«166245_g11802570129985_cont_fleet_79_12_alg».proof.Proof.Gen.KernelIdeal.Launch
import proofs.«166245_g11802570129985_cont_fleet_79_12_alg».proof.Proof.Gen.KernelIdeal.Points
import proofs.«166245_g11802570129985_cont_fleet_79_12_alg».proof.Proof.Gen.KernelIdeal.Frame
import proofs.«166245_g11802570129985_cont_fleet_79_12_alg».proof.Proof.Gen.ReferenceIdeal
import proofs.«166245_g11802570129985_cont_fleet_79_12_alg».proof.Proof.Gen.Pre_finite_inputs
import proofs.«166245_g11802570129985_cont_fleet_79_12_alg».proof.Proof.Gen.KernelIdeal.Value
import proofs.«166245_g11802570129985_cont_fleet_79_12_alg».proof.Proof.Gen.ReferenceIdeal.Run
import proofs.«166245_g11802570129985_cont_fleet_79_12_alg».proof.Proof.Gen.ReferenceIdeal.Read
import proofs.«166245_g11802570129985_cont_fleet_79_12_alg».proof.Proof.Final
import proofs.«166245_g11802570129985_cont_fleet_79_12_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the result array at the network `G` of the
    arguments: the kernel's by `Final.run`, the reference's by its run read stage by stage (`RefSide.ref_eq`). -/
theorem algebraic : Cert.algebraic_KernelIdeal_ReferenceIdeal := by
  intro m ρ m' ρ' _ hagree
  refine ⟨fun c => Cert.Siamese.Final.GK m c, Cert.Siamese.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v29_eq, Cert.Siamese.RefSide.ref_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
